-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S8192x256 : Shape := ⟨2, ![8192, 256]⟩
abbrev S4096x4 : Shape := ⟨2, ![4096, 4]⟩
abbrev S8192x4 : Shape := ⟨2, ![8192, 4]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S512x256 .f32) (main_arg7 : FVec F S256 .f32) (main_arg8 : FVec F S256x256 .f32) (main_arg9 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_v33

def fn {F : FTy → Type} [FloatOps F] (main_arg0 : FVec F S4096x256 .f32) (main_arg1 : FVec F S8192x256 .f32) (main_arg2 : IVec S4096x4 32) (main_arg3 : IVec S8192x4 32) (main_arg4 : FVec F S512x512 .f32) (main_arg5 : FVec F S512 .f32) (main_arg6 : FVec F S512x256 .f32) (main_arg7 : FVec F S256 .f32) (main_arg8 : FVec F S256x256 .f32) (main_arg9 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S4096x256 : Shape := ⟨2, ![4096, 256]⟩
abbrev S8192x256 : Shape := ⟨2, ![8192, 256]⟩
abbrev S4096x4 : Shape := ⟨2, ![4096, 4]⟩
abbrev S8192x4 : Shape := ⟨2, ![8192, 4]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S2048x256 : Shape := ⟨2, ![2048, 256]⟩
abbrev S512x1 : Shape := ⟨2, ![512, 1]⟩
abbrev S1x2048 : Shape := ⟨2, ![1, 2048]⟩
abbrev S512x2048 : Shape := ⟨2, ![512, 2048]⟩
abbrev S256x512 : Shape := ⟨2, ![256, 512]⟩
abbrev S1x512 : Shape := ⟨2, ![1, 512]⟩
abbrev S1x256 : Shape := ⟨2, ![1, 256]⟩

abbrev nBuf : Space → Nat
  | .hbm => 61
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x4, .i32⟩
  | .hbm, ⟨3, _⟩ => ⟨S8192x4, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S_, .i32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S_, .i1⟩
  | .hbm, ⟨28, _⟩ => ⟨S4096, .i1⟩
  | .hbm, ⟨29, _⟩ => ⟨S4096, .i1⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S8192, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S_, .i1⟩
  | .hbm, ⟨52, _⟩ => ⟨S8192, .i1⟩
  | .hbm, ⟨53, _⟩ => ⟨S8192, .i1⟩
  | .hbm, ⟨54, _⟩ => ⟨S8192, .i1⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S4096x1, .i32⟩
  | .hbm, ⟨59, _⟩ => ⟨S1x8192, .i32⟩
  | .hbm, ⟨60, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S512x1, .i32⟩
  | .local _ .vmem, ⟨5, _⟩ => ⟨S512x1, .i32⟩
  | .local _ .vmem, ⟨6, _⟩ => ⟨S1x2048, .i32⟩
  | .local _ .vmem, ⟨7, _⟩ => ⟨S1x2048, .i32⟩
  | .local _ .vmem, ⟨8, _⟩ => ⟨S512x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v1 : Ref sig .tc := ⟨.hbm, 33, rfl⟩
abbrev main_c_1 : Ref sig .tc := ⟨.hbm, 34, rfl⟩
abbrev main_v2 : Ref sig .tc := ⟨.hbm, 35, rfl⟩
abbrev main_c_2 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  reducesTo_S4096x4_S4096_d1 : S4096x4.ReducesTo [1] S4096
  h_S_ : 0 < S_.numel
  bcast_S_S4096 : S_.BroadcastsInDim S4096 (![] : Fin 0 → Fin S4096.rank)
  reducesTo_S8192x4_S8192_d1 : S8192x4.ReducesTo [1] S8192
  bcast_S_S8192 : S_.BroadcastsInDim S8192 (![] : Fin 0 → Fin S8192.rank)
  shapeCasts_S4096_S4096x1 : S4096.ShapeCasts S4096x1
  shapeCasts_S8192_S1x8192 : S8192.ShapeCasts S1x8192
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  natLt_1_32 : 1 < 32
  reduces_S512x2048_S512 : S512x2048.Reduces [1] S512
  shapeCasts_S512_S512x1 : S512.ShapeCasts S512x1
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  broadcasts_S512x1_S512x256 : S512x1.Broadcasts S512x256
  inb_S512x512_S512x512_0_0 : ∀ a, (![0, 0] : Fin 2 → Nat) a + S512x512.size a ≤ S512x512.size a
  h_S512x512 : 0 < S512x512.numel
  slices_S512x512_o0_0_S256x512 : S512x512.Slices ![0, 0] S256x512
  slices_S512x512_o256_0_S256x512 : S512x512.Slices ![256, 0] S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  dot_S512x2048_S2048x256_S512x256_1_0_0_1_n_n_wf : DotDims.WF S512x2048 S2048x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x256.size a
  hwx0_10 : ∀ i : grid0.Coords, EltTy.bits .f32 = 32 ∨ (Rect.block (s := S4096x256) S512x256.size (cc0_transform_10 i) (hinb0_10 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S4096x4 : Shape := ⟨2, ![4096, 4]⟩
abbrev S8192x4 : Shape := ⟨2, ![8192, 4]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S_ : Shape := ⟨0, ![]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S4096x8192 : Shape := ⟨2, ![4096, 8192]⟩
abbrev S4096x512 : Shape := ⟨2, ![4096, 512]⟩
abbrev S1x512 : Shape := ⟨2, ![1, 512]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096x4, .i32⟩
  | .hbm, ⟨3, _⟩ => ⟨S8192x4, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S_, .i32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S_, .i1⟩
  | .hbm, ⟨28, _⟩ => ⟨S4096, .i1⟩
  | .hbm, ⟨29, _⟩ => ⟨S4096, .i1⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S8192, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S_, .i32⟩
  | .hbm, ⟨51, _⟩ => ⟨S_, .i1⟩
  | .hbm, ⟨52, _⟩ => ⟨S8192, .i1⟩
  | .hbm, ⟨53, _⟩ => ⟨S8192, .i1⟩
  | .hbm, ⟨54, _⟩ => ⟨S8192, .i1⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S4096x1, .i32⟩
  | .hbm, ⟨59, _⟩ => ⟨S1x8192, .i32⟩
  | .hbm, ⟨60, _⟩ => ⟨S4096x8192, .i32⟩
  | .hbm, ⟨61, _⟩ => ⟨S4096x8192, .i32⟩
  | .hbm, ⟨62, _⟩ => ⟨S4096x8192, .i1⟩
  | .hbm, ⟨63, _⟩ => ⟨S4096x8192, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x256, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S4096x512, .f32⟩
  | .hbm, ⟨74, _⟩ => ⟨S4096x512, .f32⟩
  | .hbm, ⟨75, _⟩ => ⟨S1x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096x512, .f32⟩
  | .hbm, ⟨80, _⟩ => ⟨S4096x512, .f32⟩
  | .hbm, ⟨81, _⟩ => ⟨S4096x256, .f32⟩
  | .hbm, ⟨82, _⟩ => ⟨S1x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S1x256, .f32⟩
  | .hbm, ⟨87, _⟩ => ⟨S4096x256, .f32⟩
  | .hbm, ⟨88, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v1 : Ref sig .tc := ⟨.hbm, 33, rfl⟩
abbrev main_c_1 : Ref sig .tc := ⟨.hbm, 34, rfl⟩
abbrev main_v2 : Ref sig .tc := ⟨.hbm, 35, rfl⟩
abbrev main_c_2 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_3 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩

abbrev nD : Nat := 1
abbrev τ : Topo := Topo.v7x

variable {F : FTy → Type} [FloatOps F]

class Facts₀ : Prop where
  reducesTo_S4096x4_S4096_d1 : S4096x4.ReducesTo [1] S4096
  h_S_ : 0 < S_.numel
  bcast_S_S4096 : S_.BroadcastsInDim S4096 (![] : Fin 0 → Fin S4096.rank)
  reducesTo_S8192x4_S8192_d1 : S8192x4.ReducesTo [1] S8192
  bcast_S_S8192 : S_.BroadcastsInDim S8192 (![] : Fin 0 → Fin S8192.rank)
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x8192_S8192x256_S4096x256_1_0_0_1_n_n_wf : DotDims.WF S4096x8192 S8192x256 S4096x256 [1] [0] [0] [1] [] []
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  dot_S4096x256_S256x256_S4096x256_1_0_0_1_n_n_wf : DotDims.WF S4096x256 S256x256 S4096x256 [1] [0] [0] [1] [] []

variable [Facts₀]

def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.KerPieces.lean ====
/-
  What each case of the kernel body leaves behind, as values.

  The body keeps the matched rows' running sum and their running count in two blocks that persist from one grid
  point to the next.  At a row block's first point it clears both and then adds the point's contribution; at a middle
  point it only adds; at the last point it adds and then writes the output block from the finished sum and count.
  Each statement below names what one of the three cases leaves in the sum, in the count or in the output block, as the
  body's own arithmetic applied to the point's input blocks and to what the point before left.
-/
import proofs.«143300_j44341242364566_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle point adds its contribution to the sum the point before left. -/
theorem sum_mid (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : ¬cond0_0 i) (hc1 : ¬cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) (xs0 : Vec F S512x256 .f32) (xs1 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay5 x2 x3 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A middle point adds its matches to the count the point before left. -/
theorem cnt_mid (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : ¬cond0_0 i) (hc1 : ¬cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) (xs0 : Vec F S512x256 .f32) (xs1 : Vec F S512x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay4 x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A first point clears the sum and adds its contribution to the zero block. -/
theorem sum_first (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : cond0_0 i) (hc1 : ¬cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay5 x2 x3 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S512x256) hz2, View.readCov_unit_zero (S := S512x256) _ hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A first point clears the count and adds its matches to the zero column. -/
theorem cnt_first (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : cond0_0 i) (hc1 : ¬cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay4 x2 x3 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A last point adds its contribution to the sum like a middle one. -/
theorem sum_last (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : ¬cond0_0 i) (hc1 : cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) (xs0 : Vec F S512x256 .f32) (xs1 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay5 x2 x3 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A last point adds its matches to the count like a middle one. -/
theorem cnt_last (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : ¬cond0_0 i) (hc1 : cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) (xs0 : Vec F S512x256 .f32) (xs1 : Vec F S512x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay4 x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

/-- A last point writes the output block from the sum and the count it has just finished. -/
theorem out_last (c : Dev nD) (i : grid0.Coords) (arg2 : Memref sig .tc .vmem S512x256 .f32) (harg2 : arg2.IsWhole) (arg3 : Memref sig .tc .vmem S2048x256 .f32) (harg3 : arg3.IsWhole) (arg4 : Memref sig .tc .vmem S512x1 .i32) (harg4 : arg4.IsWhole) (arg5 : Memref sig .tc .vmem S1x2048 .i32) (harg5 : arg5.IsWhole) (arg6 : Memref sig .tc .vmem S512x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x1 .f32) (harg14 : arg14.IsWhole) (hc0 : ¬cond0_0 i) (hc1 : cond0_1 i) (x0 : Vec F S512x256 .f32) (x1 : Vec F S2048x256 .f32) (x2 : Vec F S512x1 .i32) (x3 : Vec F S1x2048 .i32) (x4 : Vec F S512x512 .f32) (x5 : Vec F S512 .f32) (x6 : Vec F S512x256 .f32) (x7 : Vec F S256 .f32) (x8 : Vec F S256x256 .f32) (x9 : Vec F S256 .f32) (xs0 : Vec F S512x256 .f32) (xs1 : Vec F S512x1 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = k0_pay6 (k0_pay5 x2 x3 x1 xs0) (k0_pay4 x2 x3 xs1) x0 x4 x5 x6 x7 x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, harg10.read_unread, harg11.read_unread, harg13.read_unread, harg14.read_unread,
    View.ld_unit_zero (S := S512x256) hz2, View.ld_unit_zero (S := S2048x256) hz2, View.ld_unit_zero (S := S512x1) hz2,
    View.ld_unit_zero (S := S1x2048) hz2, View.ld_unit_zero (S := S512x512) hz2, View.ld_unit_zero (S := S256x256) hz2,
    View.ld_unit_zero (S := S512) hz1, View.ld_unit_zero (S := S256) hz1,
    View.readCov_unit_zero (S := S512x256) _ hz2, View.readCov_unit_zero (S := S512x1) _ hz2]

end Cert.KernelIdeal.Pieces

end
-- ==== Proof.KerFold.lean ====
/-
  The running sum and count over a row block's four grid points, and the output block its last point writes.

  Row block i occupies the grid points 4 i, 4 i + 1, 4 i + 2, 4 i + 3.  After the k-th of them the running sum is the
  body's update applied k + 1 times to the zero block, each time with that point's input blocks, and likewise the
  running count; the last point's output block is the body's closing arithmetic on the finished sum and count.
-/
import proofs.«143300_j44341242364566_1_alg».proof.Proof.KerPieces

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem lt_N (i : Fin 8) (k : ℕ) (h : k < 4) : 4 * i.val + k < cfg0.N := by
  rw [show cfg0.N = 32 from N_0]; have := i.isLt; omega

/-- The k-th grid point of row block i. -/
abbrev pt (i : Fin 8) (k : ℕ) (h : k < 4) : Fin cfg0.N := ⟨4 * i.val + k, lt_N i k h⟩

/-- The running sum after the k-th point of row block i. -/
def sumAt (c : Dev nD) (i : Fin 8) : (k : ℕ) → k < 4 → Vec F S512x256 .f32
  | 0, h => k0_pay5 (iblk m c 2 (pt i 0 h)) (iblk m c 3 (pt i 0 h)) (iblk m c 1 (pt i 0 h)) k0_pay1
  | k + 1, h => k0_pay5 (iblk m c 2 (pt i (k + 1) h)) (iblk m c 3 (pt i (k + 1) h)) (iblk m c 1 (pt i (k + 1) h))
      (sumAt c i k (Nat.lt_of_succ_lt h))

/-- The running count after the k-th point of row block i. -/
def cntAt (c : Dev nD) (i : Fin 8) : (k : ℕ) → k < 4 → Vec F S512x1 .f32
  | 0, h => k0_pay4 (iblk m c 2 (pt i 0 h)) (iblk m c 3 (pt i 0 h)) k0_pay2
  | k + 1, h => k0_pay4 (iblk m c 2 (pt i (k + 1) h)) (iblk m c 3 (pt i (k + 1) h)) (cntAt c i k (Nat.lt_of_succ_lt h))

/-- The contents after a point named two ways are the same. -/
theorem outsAt_congr (c : Dev nD) (n n' : ℕ) (h : n < cfg0.N) (h' : n' < cfg0.N) (e : n = n') :
    outsAt0 m c n h = outsAt0 m c n' h' := by subst e; rfl

/-- What the two running blocks hold after the k-th point of row block i. -/
theorem carried_eq (c : Dev nD) (i : Fin 8) : ∀ (k : ℕ) (h : k < 4),
    (outsAt0 m c (4 * i.val + k) (lt_N i k h)).2.1 = sumAt m c i k h
      ∧ (outsAt0 m c (4 * i.val + k) (lt_N i k h)).2.2 = cntAt m c i k h
  | 0, h => by
    have h0 : (pt i 0 h).val % 4 = 0 := by show (4 * i.val + 0) % 4 = 0; omega
    have h1 : ¬(pt i 0 h).val % 4 = 3 := by show ¬(4 * i.val + 0) % 4 = 3; omega
    have e := outsAt0_A m c (pt i 0 h) h0 h1
    constructor
    · show (outsAt0 m c (pt i 0 h).val (pt i 0 h).isLt).2.1 = _
      rw [e]; dsimp only
      exact Pieces.sum_first c (grid0.coords (pt i 0 h)) (ms0_0 (pt i 0 h)) (hs0_0 (pt i 0 h)) (ms0_1 (pt i 0 h)) (hs0_1 (pt i 0 h)) (ms0_2 (pt i 0 h)) (hs0_2 (pt i 0 h)) (ms0_3 (pt i 0 h)) (hs0_3 (pt i 0 h)) (ms0_4 (pt i 0 h)) (hs0_4 (pt i 0 h)) (ms0_5 (pt i 0 h)) (hs0_5 (pt i 0 h)) (ms0_6 (pt i 0 h)) (hs0_6 (pt i 0 h)) (ms0_7 (pt i 0 h)) (hs0_7 (pt i 0 h)) (ms0_8 (pt i 0 h)) (hs0_8 (pt i 0 h)) (ms0_9 (pt i 0 h)) (hs0_9 (pt i 0 h)) (ms0_10 (pt i 0 h)) (hs0_10 (pt i 0 h)) scM0_0 (Memref.isWhole_whole _) scM0_1 (Memref.isWhole_whole _) ((hcond0_0 (pt i 0 h)).mpr h0) (fun hh => h1 ((hcond0_1 (pt i 0 h)).mp hh)) (iblk m c 0 (pt i 0 h)) (iblk m c 1 (pt i 0 h)) (iblk m c 2 (pt i 0 h)) (iblk m c 3 (pt i 0 h)) (iblk m c 4 (pt i 0 h)) (iblk m c 5 (pt i 0 h)) (iblk m c 6 (pt i 0 h)) (iblk m c 7 (pt i 0 h)) (iblk m c 8 (pt i 0 h)) (iblk m c 9 (pt i 0 h))
    · show (outsAt0 m c (pt i 0 h).val (pt i 0 h).isLt).2.2 = _
      rw [e]; dsimp only
      exact Pieces.cnt_first c (grid0.coords (pt i 0 h)) (ms0_0 (pt i 0 h)) (hs0_0 (pt i 0 h)) (ms0_1 (pt i 0 h)) (hs0_1 (pt i 0 h)) (ms0_2 (pt i 0 h)) (hs0_2 (pt i 0 h)) (ms0_3 (pt i 0 h)) (hs0_3 (pt i 0 h)) (ms0_4 (pt i 0 h)) (hs0_4 (pt i 0 h)) (ms0_5 (pt i 0 h)) (hs0_5 (pt i 0 h)) (ms0_6 (pt i 0 h)) (hs0_6 (pt i 0 h)) (ms0_7 (pt i 0 h)) (hs0_7 (pt i 0 h)) (ms0_8 (pt i 0 h)) (hs0_8 (pt i 0 h)) (ms0_9 (pt i 0 h)) (hs0_9 (pt i 0 h)) (ms0_10 (pt i 0 h)) (hs0_10 (pt i 0 h)) scM0_0 (Memref.isWhole_whole _) scM0_1 (Memref.isWhole_whole _) ((hcond0_0 (pt i 0 h)).mpr h0) (fun hh => h1 ((hcond0_1 (pt i 0 h)).mp hh)) (iblk m c 0 (pt i 0 h)) (iblk m c 1 (pt i 0 h)) (iblk m c 2 (pt i 0 h)) (iblk m c 3 (pt i 0 h)) (iblk m c 4 (pt i 0 h)) (iblk m c 5 (pt i 0 h)) (iblk m c 6 (pt i 0 h)) (iblk m c 7 (pt i 0 h)) (iblk m c 8 (pt i 0 h)) (iblk m c 9 (pt i 0 h))
  | k + 1, h => by
    have ih := carried_eq c i k (Nat.lt_of_succ_lt h)
    have h0 : ¬(pt i (k + 1) h).val % 4 = 0 := by show ¬(4 * i.val + (k + 1)) % 4 = 0; omega
    have hprev : outsAt0 m c ((pt i (k + 1) h).val - 1) (Nat.lt_of_le_of_lt (Nat.sub_le _ _) (pt i (k + 1) h).isLt)
        = outsAt0 m c (4 * i.val + k) (lt_N i k (Nat.lt_of_succ_lt h)) :=
      outsAt_congr m c _ _ _ _ (by show 4 * i.val + (k + 1) - 1 = 4 * i.val + k; omega)
    by_cases h1 : (pt i (k + 1) h).val % 4 = 3
    · have e := outsAt0_C m c (pt i (k + 1) h) h0 h1
      constructor
      · show (outsAt0 m c (pt i (k + 1) h).val (pt i (k + 1) h).isLt).2.1 = _
        rw [e]; dsimp only
        rw [hprev, ih.1, ih.2]
        exact Pieces.sum_last c (grid0.coords (pt i (k + 1) h)) (ms0_0 (pt i (k + 1) h)) (hs0_0 (pt i (k + 1) h)) (ms0_1 (pt i (k + 1) h)) (hs0_1 (pt i (k + 1) h)) (ms0_2 (pt i (k + 1) h)) (hs0_2 (pt i (k + 1) h)) (ms0_3 (pt i (k + 1) h)) (hs0_3 (pt i (k + 1) h)) (ms0_4 (pt i (k + 1) h)) (hs0_4 (pt i (k + 1) h)) (ms0_5 (pt i (k + 1) h)) (hs0_5 (pt i (k + 1) h)) (ms0_6 (pt i (k + 1) h)) (hs0_6 (pt i (k + 1) h)) (ms0_7 (pt i (k + 1) h)) (hs0_7 (pt i (k + 1) h)) (ms0_8 (pt i (k + 1) h)) (hs0_8 (pt i (k + 1) h)) (ms0_9 (pt i (k + 1) h)) (hs0_9 (pt i (k + 1) h)) (ms0_10 (pt i (k + 1) h)) (hs0_10 (pt i (k + 1) h)) scM0_0 (Memref.isWhole_whole _) scM0_1 (Memref.isWhole_whole _) (fun hh => h0 ((hcond0_0 (pt i (k + 1) h)).mp hh)) ((hcond0_1 (pt i (k + 1) h)).mpr h1) (iblk m c 0 (pt i (k + 1) h)) (iblk m c 1 (pt i (k + 1) h)) (iblk m c 2 (pt i (k + 1) h)) (iblk m c 3 (pt i (k + 1) h)) (iblk m c 4 (pt i (k + 1) h)) (iblk m c 5 (pt i (k + 1) h)) (iblk m c 6 (pt i (k + 1) h)) (iblk m c 7 (pt i (k + 1) h)) (iblk m c 8 (pt i (k + 1) h)) (iblk m c 9 (pt i (k + 1) h)) (sumAt m c i k (Nat.lt_of_succ_lt h)) (cntAt m c i k (Nat.lt_of_succ_lt h))
      · show (outsAt0 m c (pt i (k + 1) h).val (pt i (k + 1) h).isLt).2.2 = _
        rw [e]; dsimp only
        rw [hprev, ih.1, ih.2]
        exact Pieces.cnt_last c (grid0.coords (pt i (k + 1) h)) (ms0_0 (pt i (k + 1) h)) (hs0_0 (pt i (k + 1) h)) (ms0_1 (pt i (k + 1) h)) (hs0_1 (pt i (k + 1) h)) (ms0_2 (pt i (k + 1) h)) (hs0_2 (pt i (k + 1) h)) (ms0_3 (pt i (k + 1) h)) (hs0_3 (pt i (k + 1) h)) (ms0_4 (pt i (k + 1) h)) (hs0_4 (pt i (k + 1) h)) (ms0_5 (pt i (k + 1) h)) (hs0_5 (pt i (k + 1) h)) (ms0_6 (pt i (k + 1) h)) (hs0_6 (pt i (k + 1) h)) (ms0_7 (pt i (k + 1) h)) (hs0_7 (pt i (k + 1) h)) (ms0_8 (pt i (k + 1) h)) (hs0_8 (pt i (k + 1) h)) (ms0_9 (pt i (k + 1) h)) (hs0_9 (pt i (k + 1) h)) (ms0_10 (pt i (k + 1) h)) (hs0_10 (pt i (k + 1) h)) scM0_0 (Memref.isWhole_whole _) scM0_1 (Memref.isWhole_whole _) (fun hh => h0 ((hcond0_0 (pt i (k + 1) h)).mp hh)) ((hcond0_1 (pt i (k + 1) h)).mpr h1) (iblk m c 0 (pt i (k + 1) h)) (iblk m c 1 (pt i (k + 1) h)) (iblk m c 2 (pt i (k + 1) h)) (iblk m c 3 (pt i (k + 1) h)) (iblk m c 4 (pt i (k + 1) h)) (iblk m c 5 (pt i (k + 1) h)) (iblk m c 6 (pt i (k + 1) h)) (iblk m c 7 (pt i (k + 1) h)) (iblk m c 8 (pt i (k + 1) h)) (iblk m c 9 (pt i (k + 1) h)) (sumAt m c i k (Nat.lt_of_succ_lt h)) (cntAt m c i k (Nat.lt_of_succ_lt h))
    · have e := outsAt0_B m c (pt i (k + 1) h) h0 h1
      constructor
      · show (outsAt0 m c (pt i (k + 1) h).val (pt i (k + 1) h).isLt).2.1 = _
        rw [e]; dsimp only
        rw [hprev, ih.1, ih.2]
        exact Pieces.sum_mid c (grid0.coords (pt i (k + 1) h)) (ms0_0 (pt i (k + 1) h)) (hs0_0 (pt i (k + 1) h)) (ms0_1 (pt i (k + 1) h)) (hs0_1 (pt i (k + 1) h)) (ms0_2 (pt i (k + 1) h)) (hs0_2 (pt i (k + 1) h)) (ms0_3 (pt i (k + 1) h)) (hs0_3 (pt i (k + 1) h)) (ms0_4 (pt i (k + 1) h)) (hs0_4 (pt i (k + 1) h)) (ms0_5 (pt i (k + 1) h)) (hs0_5 (pt i (k + 1) h)) (ms0_6 (pt i (k + 1) h)) (hs0_6 (pt i (k + 1) h)) (ms0_7 (pt i (k + 1) h)) (hs0_7 (pt i (k + 1) h)) (ms0_8 (pt i (k + 1) h)) (hs0_8 (pt i (k + 1) h)) (ms0_9 (pt i (k + 1) h)) (hs0_9 (pt i (k + 1) h)) (ms0_10 (pt i (k + 1) h)) (hs0_10 (pt i (k + 1) h)) scM0_0 (Memref.isWhole_whole _) scM0_1 (Memref.isWhole_whole _) (fun hh => h0 ((hcond0_0 (pt i (k + 1) h)).mp hh)) (fun hh => h1 ((hcond0_1 (pt i (k + 1) h)).mp hh)) (iblk m c 0 (pt i (k + 1) h)) (iblk m c 1 (pt i (k + 1) h)) (iblk m c 2 (pt i (k + 1) h)) (iblk m c 3 (pt i (k + 1) h)) (iblk m c 4 (pt i (k + 1) h)) (iblk m c 5 (pt i (k + 1) h)) (iblk m c 6 (pt i (k + 1) h)) (iblk m c 7 (pt i (k + 1) h)) (iblk m c 8 (pt i (k + 1) h)) (iblk m c 9 (pt i (k + 1) h)) (sumAt m c i k (Nat.lt_of_succ_lt h)) (cntAt m c i k (Nat.lt_of_succ_lt h))
      · show (outsAt0 m c (pt i (k + 1) h).val (pt i (k + 1) h).isLt).2.2 = _
        rw [e]; dsimp only
        rw [hprev, ih.1, ih.2]
        exact Pieces.cnt_mid c (grid0.coords (pt i (k + 1) h)) (ms0_0 (pt i (k + 1) h)) (hs0_0 (pt i (k + 1) h)) (ms0_1 (pt i (k + 1) h)) (hs0_1 (pt i (k + 1) h)) (ms0_2 (pt i (k + 1) h)) (hs0_2 (pt i (k + 1) h)) (ms0_3 (pt i (k + 1) h)) (hs0_3 (pt i (k + 1) h)) (ms0_4 (pt i (k + 1) h)) (hs0_4 (pt i (k + 1) h)) (ms0_5 (pt i (k + 1) h)) (hs0_5 (pt i (k + 1) h)) (ms0_6 (pt i (k + 1) h)) (hs0_6 (pt i (k + 1) h)) (ms0_7 (pt i (k + 1) h)) (hs0_7 (pt i (k + 1) h)) (ms0_8 (pt i (k + 1) h)) (hs0_8 (pt i (k + 1) h)) (ms0_9 (pt i (k + 1) h)) (hs0_9 (pt i (k + 1) h)) (ms0_10 (pt i (k + 1) h)) (hs0_10 (pt i (k + 1) h)) scM0_0 (Memref.isWhole_whole _) scM0_1 (Memref.isWhole_whole _) (fun hh => h0 ((hcond0_0 (pt i (k + 1) h)).mp hh)) (fun hh => h1 ((hcond0_1 (pt i (k + 1) h)).mp hh)) (iblk m c 0 (pt i (k + 1) h)) (iblk m c 1 (pt i (k + 1) h)) (iblk m c 2 (pt i (k + 1) h)) (iblk m c 3 (pt i (k + 1) h)) (iblk m c 4 (pt i (k + 1) h)) (iblk m c 5 (pt i (k + 1) h)) (iblk m c 6 (pt i (k + 1) h)) (iblk m c 7 (pt i (k + 1) h)) (iblk m c 8 (pt i (k + 1) h)) (iblk m c 9 (pt i (k + 1) h)) (sumAt m c i k (Nat.lt_of_succ_lt h)) (cntAt m c i k (Nat.lt_of_succ_lt h))

/-- The output block the last point of row block i writes. -/
theorem out_eq (c : Dev nD) (i : Fin 8) :
    (outsAt0 m c (4 * i.val + 3) (lt_N i 3 (by decide))).1
      = k0_pay6 (sumAt m c i 3 (by decide)) (cntAt m c i 3 (by decide)) (iblk m c 0 (pt i 3 (by decide)))
          (iblk m c 4 (pt i 3 (by decide))) (iblk m c 5 (pt i 3 (by decide))) (iblk m c 6 (pt i 3 (by decide)))
          (iblk m c 7 (pt i 3 (by decide))) (iblk m c 8 (pt i 3 (by decide))) (iblk m c 9 (pt i 3 (by decide))) := by
  have h3 : (3 : ℕ) < 4 := by decide
  have ih := carried_eq m c i 2 (by decide)
  have h0 : ¬(pt i 3 h3).val % 4 = 0 := by show ¬(4 * i.val + 3) % 4 = 0; omega
  have h1 : (pt i 3 h3).val % 4 = 3 := by show (4 * i.val + 3) % 4 = 3; omega
  have hprev : outsAt0 m c ((pt i 3 h3).val - 1) (Nat.lt_of_le_of_lt (Nat.sub_le _ _) (pt i 3 h3).isLt)
      = outsAt0 m c (4 * i.val + 2) (lt_N i 2 (by decide)) :=
    outsAt_congr m c _ _ _ _ (by show 4 * i.val + 3 - 1 = 4 * i.val + 2; omega)
  have e := outsAt0_C m c (pt i 3 h3) h0 h1
  show (outsAt0 m c (pt i 3 h3).val (pt i 3 h3).isLt).1 = _
  rw [e]; dsimp only
  rw [hprev, ih.1, ih.2]
  exact Pieces.out_last c (grid0.coords (pt i 3 h3)) (ms0_0 (pt i 3 h3)) (hs0_0 (pt i 3 h3)) (ms0_1 (pt i 3 h3)) (hs0_1 (pt i 3 h3)) (ms0_2 (pt i 3 h3)) (hs0_2 (pt i 3 h3)) (ms0_3 (pt i 3 h3)) (hs0_3 (pt i 3 h3)) (ms0_4 (pt i 3 h3)) (hs0_4 (pt i 3 h3)) (ms0_5 (pt i 3 h3)) (hs0_5 (pt i 3 h3)) (ms0_6 (pt i 3 h3)) (hs0_6 (pt i 3 h3)) (ms0_7 (pt i 3 h3)) (hs0_7 (pt i 3 h3)) (ms0_8 (pt i 3 h3)) (hs0_8 (pt i 3 h3)) (ms0_9 (pt i 3 h3)) (hs0_9 (pt i 3 h3)) (ms0_10 (pt i 3 h3)) (hs0_10 (pt i 3 h3)) scM0_0 (Memref.isWhole_whole _) scM0_1 (Memref.isWhole_whole _) (fun hh => h0 ((hcond0_0 (pt i 3 h3)).mp hh)) ((hcond0_1 (pt i 3 h3)).mpr h1) (iblk m c 0 (pt i 3 h3)) (iblk m c 1 (pt i 3 h3)) (iblk m c 2 (pt i 3 h3)) (iblk m c 3 (pt i 3 h3)) (iblk m c 4 (pt i 3 h3)) (iblk m c 5 (pt i 3 h3)) (iblk m c 6 (pt i 3 h3)) (iblk m c 7 (pt i 3 h3)) (iblk m c 8 (pt i 3 h3)) (iblk m c 9 (pt i 3 h3)) (sumAt m c i 2 (by decide)) (cntAt m c i 2 (by decide))

end Cert.KernelIdeal.Fold

end
-- ==== Proof.KerBlocks.lean ====
/-
  The kernel's windows read at an index.

  The grid has eight row blocks of 512 rows of the first table, and for each of them four stretches of 2048 rows of
  the second.  Point t is row block t / 4 and stretch t % 4.  The first table's window and its hash column's window
  follow the row block; the second table's window and its hash row's window follow the stretch; the six weight and
  bias windows hold their whole arrays at every point.  Each statement reads one window's block at a point at its
  own index, as the array at the corresponding global index.
-/
import proofs.«143300_j44341242364566_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx

variable {F : FTy → Type} [FloatOps F]
variable (m : (ℓ : Loc nD τ sig) → Buf (Elt F) ℓ)

theorem lt32 (t : Fin cfg0.N) : t.val < 32 := lt_of_lt_of_eq t.isLt N_0

theorem idx0 : ∀ t : Fin cfg0.N, win0_0.index t (0 : Fin 2) = t.val / 4 ∧ win0_0.index t (1 : Fin 2) = 0 :=
  (by decide +kernel : ∀ t : Fin grid0.N, win0_0.index t (0 : Fin 2) = t.val / 4 ∧ win0_0.index t (1 : Fin 2) = 0)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx3 : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)

/-- The first table's block at point t is its rows 512 (t / 4) … 512 (t / 4) + 511. -/
theorem blk0_apply (c : Dev nD) (t : Fin cfg0.N) (p : Fin 512) (l : Fin 256) :
    (iblk m c 0 t : Vec F S512x256 .f32) (ix2 p l)
      = m ((c : Thread nD τ).loc main_arg0)
          (ix2 (⟨512 * (t.val / 4) + p.val, by have := lt32 t; have := p.isLt; omega⟩ : Fin 4096) l) := by
  unfold iblk
  rw [View.read_apply]
  show V m c main_arg0 _ = _
  rw [V_main_arg0]
  refine congrArg _ (funext fun a => Fin.ext ?_)
  match a with
  | ⟨0, _⟩ => show win0_0.index t 0 * 512 + 1 * p.val = 512 * (t.val / 4) + p.val; rw [(idx0 t).1]; omega
  | ⟨1, _⟩ => show win0_0.index t 1 * 256 + 1 * l.val = l.val; rw [(idx0 t).2]; omega

/-- The second table's block at point t is its rows 2048 (t % 4) … 2048 (t % 4) + 2047. -/
theorem blk1_apply (c : Dev nD) (t : Fin cfg0.N) (q : Fin 2048) (d : Fin 256) :
    (iblk m c 1 t : Vec F S2048x256 .f32) (ix2 q d)
      = m ((c : Thread nD τ).loc main_arg1)
          (ix2 (⟨2048 * (t.val % 4) + q.val, by have := q.isLt; omega⟩ : Fin 8192) d) := by
  unfold iblk
  rw [View.read_apply]
  show V m c main_arg1 _ = _
  rw [V_main_arg1]
  refine congrArg _ (funext fun a => Fin.ext ?_)
  match a with
  | ⟨0, _⟩ => show win0_1.index t 0 * 2048 + 1 * q.val = 2048 * (t.val % 4) + q.val; rw [(idx1 t).1]; omega
  | ⟨1, _⟩ => show win0_1.index t 1 * 256 + 1 * d.val = d.val; rw [(idx1 t).2]; omega

/-- The hash column's block at point t is the column's entries 512 (t / 4) … 512 (t / 4) + 511. -/
theorem blk2_apply (c : Dev nD) (t : Fin cfg0.N) (p : Fin 512) :
    (iblk m c 2 t : Vec F S512x1 .i32) (ix2 p (0 : Fin 1))
      = (V m c main_v4 : Vec F S4096x1 .i32)
          (ix2 (⟨512 * (t.val / 4) + p.val, by have := lt32 t; have := p.isLt; omega⟩ : Fin 4096) (0 : Fin 1)) := by
  unfold iblk
  rw [View.read_apply]
  show V m c main_v4 _ = _
  refine congrArg _ (funext fun a => Fin.ext ?_)
  match a with
  | ⟨0, _⟩ => show win0_2.index t 0 * 512 + 1 * p.val = 512 * (t.val / 4) + p.val; rw [(idx2 t).1]; omega
  | ⟨1, _⟩ => show win0_2.index t 1 * 1 + 1 * 0 = 0; rw [(idx2 t).2]

/-- The hash row's block at point t is the row's entries 2048 (t % 4) … 2048 (t % 4) + 2047. -/
theorem blk3_apply (c : Dev nD) (t : Fin cfg0.N) (q : Fin 2048) :
    (iblk m c 3 t : Vec F S1x2048 .i32) (ix2 (0 : Fin 1) q)
      = (V m c main_v5 : Vec F S1x8192 .i32)
          (ix2 (0 : Fin 1) (⟨2048 * (t.val % 4) + q.val, by have := q.isLt; omega⟩ : Fin 8192)) := by
  unfold iblk
  rw [View.read_apply]
  show V m c main_v5 _ = _
  refine congrArg _ (funext fun a => Fin.ext ?_)
  match a with
  | ⟨0, _⟩ => show win0_3.index t 0 * 1 + 1 * 0 = 0; rw [(idx3 t).1]
  | ⟨1, _⟩ => show win0_3.index t 1 * 2048 + 1 * q.val = 2048 * (t.val % 4) + q.val; rw [(idx3 t).2]; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4 stages its whole array at every point. -/
theorem blk4_eq (c : Dev nD) (t : Fin cfg0.N) :
    (iblk m c 4 t : Vec F S512x512 .f32) = m ((c : Thread nD τ).loc main_arg4) := by
  funext j
  unfold iblk
  rw [View.read_apply]
  show V m c main_arg4 _ = _
  rw [V_main_arg4]
  refine congrArg _ (funext fun a => Fin.ext ?_)
  match a with
  | ⟨0, _⟩ => show win0_4.index t 0 * 512 + 1 * (j 0).val = (j 0).val; rw [(idx4 t).1]; omega
  | ⟨1, _⟩ => show win0_4.index t 1 * 512 + 1 * (j 1).val = (j 1).val; rw [(idx4 t).2]; omega

theorem idx5 : ∀ t : Fin cfg0.N, win0_5.index t (0 : Fin 1) = 0 :=
  (by decide +kernel : ∀ t : Fin grid0.N, win0_5.index t (0 : Fin 1) = 0)

/-- Window 5 stages its whole array at every point. -/
theorem blk5_eq (c : Dev nD) (t : Fin cfg0.N) :
    (iblk m c 5 t : Vec F S512 .f32) = m ((c : Thread nD τ).loc main_arg5) := by
  funext j
  unfold iblk
  rw [View.read_apply]
  show V m c main_arg5 _ = _
  rw [V_main_arg5]
  refine congrArg _ (funext fun a => Fin.ext ?_)
  match a with
  | ⟨0, _⟩ => show win0_5.index t 0 * 512 + 1 * (j 0).val = (j 0).val; rw [idx5 t]; omega

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6 stages its whole array at every point. -/
theorem blk6_eq (c : Dev nD) (t : Fin cfg0.N) :
    (iblk m c 6 t : Vec F S512x256 .f32) = m ((c : Thread nD τ).loc main_arg6) := by
  funext j
  unfold iblk
  rw [View.read_apply]
  show V m c main_arg6 _ = _
  rw [V_main_arg6]
  refine congrArg _ (funext fun a => Fin.ext ?_)
  match a with
  | ⟨0, _⟩ => show win0_6.index t 0 * 512 + 1 * (j 0).val = (j 0).val; rw [(idx6 t).1]; omega
  | ⟨1, _⟩ => show win0_6.index t 1 * 256 + 1 * (j 1).val = (j 1).val; rw [(idx6 t).2]; omega

theorem idx7 : ∀ t : Fin cfg0.N, win0_7.index t (0 : Fin 1) = 0 :=
  (by decide +kernel : ∀ t : Fin grid0.N, win0_7.index t (0 : Fin 1) = 0)

/-- Window 7 stages its whole array at every point. -/
theorem blk7_eq (c : Dev nD) (t : Fin cfg0.N) :
    (iblk m c 7 t : Vec F S256 .f32) = m ((c : Thread nD τ).loc main_arg7) := by
  funext j
  unfold iblk
  rw [View.read_apply]
  show V m c main_arg7 _ = _
  rw [V_main_arg7]
  refine congrArg _ (funext fun a => Fin.ext ?_)
  match a with
  | ⟨0, _⟩ => show win0_7.index t 0 * 256 + 1 * (j 0).val = (j 0).val; rw [idx7 t]; omega

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8 stages its whole array at every point. -/
theorem blk8_eq (c : Dev nD) (t : Fin cfg0.N) :
    (iblk m c 8 t : Vec F S256x256 .f32) = m ((c : Thread nD τ).loc main_arg8) := by
  funext j
  unfold iblk
  rw [View.read_apply]
  show V m c main_arg8 _ = _
  rw [V_main_arg8]
  refine congrArg _ (funext fun a => Fin.ext ?_)
  match a with
  | ⟨0, _⟩ => show win0_8.index t 0 * 256 + 1 * (j 0).val = (j 0).val; rw [(idx8 t).1]; omega
  | ⟨1, _⟩ => show win0_8.index t 1 * 256 + 1 * (j 1).val = (j 1).val; rw [(idx8 t).2]; omega

theorem idx9 : ∀ t : Fin cfg0.N, win0_9.index t (0 : Fin 1) = 0 :=
  (by decide +kernel : ∀ t : Fin grid0.N, win0_9.index t (0 : Fin 1) = 0)

/-- Window 9 stages its whole array at every point. -/
theorem blk9_eq (c : Dev nD) (t : Fin cfg0.N) :
    (iblk m c 9 t : Vec F S256 .f32) = m ((c : Thread nD τ).loc main_arg9) := by
  funext j
  unfold iblk
  rw [View.read_apply]
  show V m c main_arg9 _ = _
  rw [V_main_arg9]
  refine congrArg _ (funext fun a => Fin.ext ?_)
  match a with
  | ⟨0, _⟩ => show win0_9.index t 0 * 256 + 1 * (j 0).val = (j 0).val; rw [idx9 t]; omega

end Cert.KernelIdeal.Blocks

end
-- ==== Proof.Spec.lean ====
/-
  The relation encoder as one function of its arguments, over the extended reals.

  Row r of the first table is matched against every row j of the second whose hash word equals its own; the matched
  rows are averaged (their sum divided by the larger of their number and one), the average is laid beside the
  row itself, and the pair goes through three affine layers, the first followed by a clamp at zero from below.
  The function is written twice.  `refOut` sums the matches over all 8192 rows at once and contracts the first layer
  over the 512 laid-together coordinates.  `kerOut` sums the matches in four stretches of 2048 rows, one after the
  other, and contracts the first layer over the row's own 256 coordinates and over the average's 256 separately.
  The two agree: a sum over `Fin (4 * n)` is the sum of its four stretches, a sum over `Fin (n + n)` of its two
  halves, and addition of extended reals is commutative and associative (no finiteness is needed: nothing is
  distributed or cancelled).
-/
import Idealize.ShloMosaic.Lib.ValueIdx
import Idealize.ShloMosaic.PureOps.Ideal.Laws
import Mathlib.Algebra.BigOperators.Fin

noncomputable section

namespace Cert.RelEnc

open Idealize.ShloMosaic Idealize.ShloMosaic.ValueIdx

/-- The indicator of two equal hash words: the comparison's bit read as a number, 1 or 0. -/
def ind (x y : BitVec 32) : EReal := (((IntOp.cmpi .eq x y).toNat : ℝ) : EReal)

/-- A one-bit word widened to 32 bits and read signed is the bit read unsigned. -/
theorem toInt_setWidth_bit (b : BitVec 1) : ((b.setWidth 32).toInt : ℝ) = (b.toNat : ℝ) := by
  have h : ∀ b : BitVec 1, (b.setWidth 32).toInt = (b.toNat : ℤ) := by decide
  rw [h b]; simp

/-- The indicator as a kernel spells it: the bit widened, then converted as a signed word. -/
theorem ind_signed (x y : BitVec 32) :
    FloatOps.sitofp (F := Ideal) .f32 ((IntOp.cmpi .eq x y).setWidth 32) = ind x y := by
  show ((((IntOp.cmpi .eq x y).setWidth 32).toInt : ℝ) : EReal) = _
  rw [toInt_setWidth_bit]; rfl

/-- The indicator as the host spells it: the bit converted as an unsigned word. -/
theorem ind_unsigned (x y : BitVec 32) :
    FloatOps.uitofp (F := Ideal) .f32 (IntOp.cmpi .eq x y) = ind x y := rfl

/-- The word 1.0, which bounds the match count from below; both programs carry the same word. -/
abbrev oneW : EReal := Ideal.ofBits .f32 0x3F800000#32

section

variable (hc : (⟨2, ![4096, 1]⟩ : Shape).Idx → BitVec 32) (hr : (⟨2, ![1, 8192]⟩ : Shape).Idx → BitVec 32)
  (a : FVec Ideal ⟨2, ![4096, 256]⟩ .f32) (b : FVec Ideal ⟨2, ![8192, 256]⟩ .f32)
  (W1 : FVec Ideal ⟨2, ![512, 512]⟩ .f32) (b1 : FVec Ideal ⟨1, ![512]⟩ .f32)
  (W2 : FVec Ideal ⟨2, ![512, 256]⟩ .f32) (b2 : FVec Ideal ⟨1, ![256]⟩ .f32)
  (Wo : FVec Ideal ⟨2, ![256, 256]⟩ .f32) (bo : FVec Ideal ⟨1, ![256]⟩ .f32)

/-- Row r of the first table matches row j of the second: 1 or 0. -/
def mk (r : Fin 4096) (j : Fin 8192) : EReal := ind (hc (ix2 r (0 : Fin 1))) (hr (ix2 (0 : Fin 1) j))

/-! ### Summed at once -/

/-- How many rows match row r. -/
def refCnt (r : Fin 4096) : EReal := ∑ j : Fin 8192, mk hc hr r j

/-- The matched rows' average at coordinate d (their sum over the larger of their number and one). -/
def refAgg (r : Fin 4096) (d : Fin 256) : EReal :=
  Ideal.div (∑ j : Fin 8192, mk hc hr r j * b (ix2 j d)) (max (refCnt hc hr r) oneW)

/-- The row laid beside its matches' average: 512 coordinates. -/
def refComb (r : Fin 4096) (l : Fin 512) : EReal :=
  if h : l.val < 256 then a (ix2 r (⟨l.val, h⟩ : Fin 256))
  else refAgg hc hr b r ⟨l.val - 256, by have := l.isLt; omega⟩

/-- The first layer, clamped at zero from below. -/
def refHid (r : Fin 4096) (n : Fin 512) : EReal :=
  max ((∑ l : Fin 512, refComb hc hr a b r l * W1 (ix2 l n)) + b1 (ix1 n)) 0

/-! ### Summed in stretches -/

/-- A sum over 8192 rows taken as four stretches of 2048. -/
def sum4 (f : Fin 8192 → EReal) : EReal :=
  ∑ k : Fin 4, ∑ q : Fin 2048, f ⟨2048 * k.val + q.val, by have := k.isLt; have := q.isLt; omega⟩

def kerCnt (r : Fin 4096) : EReal := sum4 fun j => mk hc hr r j

def kerAgg (r : Fin 4096) (d : Fin 256) : EReal :=
  Ideal.div (sum4 fun j => mk hc hr r j * b (ix2 j d)) (max (kerCnt hc hr r) oneW)

/-- The first layer contracted over the row's own coordinates and over the average's separately. -/
def kerHid (r : Fin 4096) (n : Fin 512) : EReal :=
  max (((∑ l : Fin 256, a (ix2 r l) * W1 (ix2 (⟨l.val, by have := l.isLt; omega⟩ : Fin 512) n))
        + ∑ l : Fin 256, kerAgg hc hr b r l * W1 (ix2 (⟨256 + l.val, by have := l.isLt; omega⟩ : Fin 512) n))
      + b1 (ix1 n)) 0

/-! ### The two later layers, of any hidden row -/

def relOf (h : Fin 512 → EReal) (n : Fin 256) : EReal := (∑ l : Fin 512, h l * W2 (ix2 l n)) + b2 (ix1 n)

def outOf (rel : Fin 256 → EReal) (n : Fin 256) : EReal := (∑ l : Fin 256, rel l * Wo (ix2 l n)) + bo (ix1 n)

/-- The encoder with the matches summed at once. -/
def refOut : FVec Ideal ⟨2, ![4096, 256]⟩ .f32 := fun i =>
  outOf Wo bo (relOf W2 b2 (refHid hc hr a b W1 b1 (i 0))) (i 1)

/-- The encoder with the matches summed in stretches. -/
def kerOut : FVec Ideal ⟨2, ![4096, 256]⟩ .f32 := fun i =>
  outOf Wo bo (relOf W2 b2 (kerHid hc hr a b W1 b1 (i 0))) (i 1)

end

/-! ### The two agree -/

/-- A sum over `Fin (4 * n)` is the sum of its four stretches. -/
theorem sum_stretches {M : Type} [AddCommMonoid M] (n : ℕ) (f : Fin (4 * n) → M) :
    ∑ j : Fin (4 * n), f j
      = ∑ k : Fin 4, ∑ q : Fin n, f ⟨n * k.val + q.val, by
          have := k.isLt; have := q.isLt
          calc n * k.val + q.val < n * k.val + n := by omega
            _ = n * (k.val + 1) := by ring
            _ ≤ n * 4 := Nat.mul_le_mul_left n (by omega)
            _ = 4 * n := Nat.mul_comm _ _⟩ := by
  rw [← Equiv.sum_comp finProdFinEquiv f, Fintype.sum_prod_type]
  refine Finset.sum_congr rfl fun k _ => Finset.sum_congr rfl fun q _ => congrArg f (Fin.ext ?_)
  show q.val + n * k.val = n * k.val + q.val
  omega

theorem sum4_eq (f : Fin 8192 → EReal) : sum4 f = ∑ j : Fin 8192, f j :=
  (sum_stretches 2048 f).symm

/-- A sum over `Fin (n + n)` is the sum of its two halves. -/
theorem sum_halves {M : Type} [AddCommMonoid M] (n : ℕ) (g : Fin (n + n) → M) :
    ∑ l : Fin (n + n), g l
      = (∑ l : Fin n, g ⟨l.val, by have := l.isLt; omega⟩) + ∑ l : Fin n, g ⟨n + l.val, by have := l.isLt; omega⟩ := by
  rw [Fin.sum_univ_add]
  rfl

section

variable (hc : (⟨2, ![4096, 1]⟩ : Shape).Idx → BitVec 32) (hr : (⟨2, ![1, 8192]⟩ : Shape).Idx → BitVec 32)
  (a : FVec Ideal ⟨2, ![4096, 256]⟩ .f32) (b : FVec Ideal ⟨2, ![8192, 256]⟩ .f32)
  (W1 : FVec Ideal ⟨2, ![512, 512]⟩ .f32) (b1 : FVec Ideal ⟨1, ![512]⟩ .f32)
  (W2 : FVec Ideal ⟨2, ![512, 256]⟩ .f32) (b2 : FVec Ideal ⟨1, ![256]⟩ .f32)
  (Wo : FVec Ideal ⟨2, ![256, 256]⟩ .f32) (bo : FVec Ideal ⟨1, ![256]⟩ .f32)

theorem kerCnt_eq (r : Fin 4096) : kerCnt hc hr r = refCnt hc hr r := sum4_eq _

theorem kerAgg_eq (r : Fin 4096) (d : Fin 256) : kerAgg hc hr b r d = refAgg hc hr b r d := by
  unfold kerAgg refAgg
  rw [sum4_eq, kerCnt_eq]

theorem kerHid_eq (r : Fin 4096) (n : Fin 512) : kerHid hc hr a b W1 b1 r n = refHid hc hr a b W1 b1 r n := by
  unfold kerHid refHid
  rw [sum_halves 256 fun l : Fin 512 => refComb hc hr a b r l * W1 (ix2 l n)]
  refine congrArg (fun x => max (x + b1 (ix1 n)) 0) (congrArg₂ (· + ·) ?_ ?_)
  · refine Finset.sum_congr rfl fun l _ => ?_
    unfold refComb
    rw [dif_pos (show (⟨l.val, _⟩ : Fin 512).val < 256 from l.isLt)]
  · refine Finset.sum_congr rfl fun l _ => ?_
    unfold refComb
    rw [dif_neg (show ¬ (⟨256 + l.val, _⟩ : Fin 512).val < 256 from by show ¬ 256 + l.val < 256; omega), kerAgg_eq]
    refine congrArg (fun d => refAgg hc hr b r d * _) (Fin.ext ?_)
    show l.val = 256 + l.val - 256
    omega

/-- Summed in stretches or at once, the encoder is one function. -/
theorem kerOut_eq : kerOut hc hr a b W1 b1 W2 b2 Wo bo = refOut hc hr a b W1 b1 W2 b2 Wo bo := by
  funext i
  unfold kerOut refOut
  rw [show kerHid hc hr a b W1 b1 (i 0) = refHid hc hr a b W1 b1 (i 0) from funext fun n => kerHid_eq hc hr a b W1 b1 (i 0) n]

end

end Cert.RelEnc

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.LibPlainDot.lean ====
/-
  A plain matrix product read at an index.

  For dimension numbers that contract the left operand's second axis against the right operand's first, with no batch
  axis — an [M, K] array times a [K, N] array — the product at (p, n) is the sum over k of the left operand at (p, k)
  times the right operand at (k, n): for the host's product, and for a kernel's product accumulated into the zero
  pattern.  For any extents, at the ideal values.
-/
import Idealize.ShloMosaic.Lib.ValueIdx
import Idealize.ShloMosaic.PureOps.Ideal.Laws

noncomputable section

namespace Cert.LibPlainDot

open Idealize.ShloMosaic Idealize.ShloMosaic.ValueIdx

variable {M K N : ℕ}

/-- The plain dimension numbers over whatever evidence of their well-formedness a program carries. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

variable (wf : DotDims.WF ⟨2, ![M, K]⟩ ⟨2, ![K, N]⟩ ⟨2, ![M, N]⟩ [1] [0] [0] [1] [] [])

/-- The left operand's row is the result's row. -/
theorem lhs_0 (i : (⟨2, ![M, N]⟩ : Shape).Idx) (q : (dims wf).contr.Idx) :
    ((dims wf).lhsIdx i q 0).val = (i 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column is the contraction position. -/
theorem lhs_1 (i : (⟨2, ![M, N]⟩ : Shape).Idx) (q : (dims wf).contr.Idx) :
    ((dims wf).lhsIdx i q 1).val = (q ⟨0, (show 0 < (dims wf).contr.rank from Nat.one_pos)⟩).val :=
  (dims wf).lhsIdx_val_of_single rfl i q

/-- The right operand's row is the contraction position. -/
theorem rhs_0 (i : (⟨2, ![M, N]⟩ : Shape).Idx) (q : (dims wf).contr.Idx) :
    ((dims wf).rhsIdx i q 0).val = (q ⟨0, (show 0 < (dims wf).contr.rank from Nat.one_pos)⟩).val :=
  (dims wf).rhsIdx_val_of_single rfl i q

/-- The right operand's column is the result's column. -/
theorem rhs_1 (i : (⟨2, ![M, N]⟩ : Shape).Idx) (q : (dims wf).contr.Idx) :
    ((dims wf).rhsIdx i q 1).val = (i 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The sum over the contraction index, re-indexed by its one coordinate. -/
theorem sum_contr (l : (⟨2, ![M, K]⟩ : Shape).Idx → EReal) (r : (⟨2, ![K, N]⟩ : Shape).Idx → EReal) (p : Fin M) (n : Fin N) :
    ∑ q : (dims wf).contr.Idx, l ((dims wf).lhsIdx (ix2 p n) q) * r ((dims wf).rhsIdx (ix2 p n) q)
      = ∑ k : Fin K, l (ix2 p k) * r (ix2 k n) := by
  rw [← Equiv.sum_comp (contrEquiv1 (dims wf) K rfl rfl).symm]
  refine Finset.sum_congr rfl fun k _ => ?_
  have hk := contrEquiv1_symm_val (dims wf) K rfl rfl k
  have el : (dims wf).lhsIdx (ix2 p n) ((contrEquiv1 (dims wf) K rfl rfl).symm k) = ix2 p k := funext fun a => Fin.ext (by
    match a with
    | ⟨0, _⟩ => exact lhs_0 wf _ _
    | ⟨1, _⟩ => exact (lhs_1 wf _ _).trans hk)
  have er : (dims wf).rhsIdx (ix2 p n) ((contrEquiv1 (dims wf) K rfl rfl).symm k) = ix2 k n := funext fun a => Fin.ext (by
    match a with
    | ⟨0, _⟩ => exact (rhs_0 wf _ _).trans hk
    | ⟨1, _⟩ => exact rhs_1 wf _ _)
  rw [el, er]

/-- The host's product at (p, n). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (n : Fin N) :
    FloatOps.dotGeneral (dims wf) prec sched l r (ix2 p n) = ∑ k : Fin K, l (ix2 p k) * r (ix2 k n) := by
  rw [Ideal.dotGeneral_apply]
  exact sum_contr wf l r p n

/-- A kernel's product into the zero pattern at (p, n). -/
theorem matmul_zero_apply {φ₁ φ₂ : FTy} (prec : Option ContractPrecision)
    (l : FVec Ideal ⟨2, ![M, K]⟩ φ₁) (r : FVec Ideal ⟨2, ![K, N]⟩ φ₂) (p : Fin M) (n : Fin N) :
    FloatOps.matmul (dims wf) prec l r (constant ⟨2, ![M, N]⟩ .f32 0x00000000#32) (ix2 p n)
      = ∑ k : Fin K, l (ix2 p k) * r (ix2 k n) := by
  rw [Ideal.matmul_constant_zero_apply]
  exact sum_contr wf l r p n

end Cert.LibPlainDot

end
-- ==== Proof.KerPayload.lean ====
/-
  The kernel body's stored values read at an index, over the extended reals.

  The body keeps two running blocks for its 512 rows: the matched rows' sum (512 by 256) and their number (512 by 1).
  At each grid point it adds to them the contribution of the point's 2048 rows of the second table; at a row block's
  last point it divides, lays the row beside the average and applies the three layers.  Each statement below reads
  one such stored value at a row p (and a column), in terms of the loaded blocks read at their own indices.
-/
import proofs.«143300_j44341242364566_1_alg».proof.Proof.Gen.KernelIdeal.Skeleton
import proofs.«143300_j44341242364566_1_alg».proof.Proof.Spec
import proofs.«143300_j44341242364566_1_alg».proof.Proof.LibKeepdims
import proofs.«143300_j44341242364566_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.RelEnc

/-- An [a, 1] column broadcast across the columns of [a, b]: at (p, q), its entry in row p. -/
private theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply _ h (ix2 p q) (ix2 p (0 : Fin 1)) fun ax => ?_
  match ax with
  | ⟨0, _⟩ =>
    show p.val = if a = 1 then 0 else p.val
    split
    · have := p.isLt; omega
    · rfl
  | ⟨1, _⟩ => rfl

/-- An [a, 1] column cast to its own shape and broadcast across the columns of [a, b]: at (p, q), its entry in row p. -/
private theorem column_self_broadcast_apply {α : Type} {a b : ℕ} (v : (⟨2, ![a, 1]⟩ : Shape).Idx → α)
    (h₁ : (⟨2, ![a, 1]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix2 p (0 : Fin 1)) :=
  (column_broadcast_apply _ h₂ p q).trans (congrFun (shapeCast_self v h₁) _)

/-- A vector [b] cast to a row [1, b] and broadcast down the rows of [a, b]: at (p, q), the vector at q. -/
private theorem row_of_vector_broadcast_apply {α : Type} {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ (0 : Fin 1) q)

/-- A product into the zero pattern plus a vector laid down the rows, at (p, n). -/
private theorem product_bias_apply {M K N : ℕ}
    (wf : DotDims.WF ⟨2, ![M, K]⟩ ⟨2, ![K, N]⟩ ⟨2, ![M, N]⟩ [1] [0] [0] [1] [] []) {φ₁ φ₂ : FTy}
    (l : FVec Ideal ⟨2, ![M, K]⟩ φ₁) (r : FVec Ideal ⟨2, ![K, N]⟩ φ₂) (b : FVec Ideal ⟨1, ![N]⟩ .f32)
    (h₁ : (⟨1, ![N]⟩ : Shape).ShapeCasts ⟨2, ![1, N]⟩) (h₂ : (⟨2, ![1, N]⟩ : Shape).Broadcasts ⟨2, ![M, N]⟩)
    (p : Fin M) (n : Fin N) :
    addf (FloatOps.matmul (Cert.LibPlainDot.dims wf) none l r (constant ⟨2, ![M, N]⟩ .f32 0x00000000#32))
        (broadcastTo ⟨2, ![M, N]⟩ (shapeCast ⟨2, ![1, N]⟩ b h₁) h₂) (ix2 p n)
      = (∑ k : Fin K, l (ix2 p k) * r (ix2 k n)) + b (ix1 n) :=
  (addf_apply _ _ _).trans (congrArg₂ (· + ·) (Cert.LibPlainDot.matmul_zero_apply wf none l r p n)
    (row_of_vector_broadcast_apply b h₁ h₂ p n))

/-- Two products into the zero pattern, added, plus a vector laid down the rows, clamped at zero from below, at (p, n). -/
private theorem two_products_bias_clamp_apply {M K N : ℕ}
    (wf : DotDims.WF ⟨2, ![M, K]⟩ ⟨2, ![K, N]⟩ ⟨2, ![M, N]⟩ [1] [0] [0] [1] [] []) {φ₁ φ₂ φ₃ φ₄ : FTy}
    (l₁ : FVec Ideal ⟨2, ![M, K]⟩ φ₁) (r₁ : FVec Ideal ⟨2, ![K, N]⟩ φ₂)
    (l₂ : FVec Ideal ⟨2, ![M, K]⟩ φ₃) (r₂ : FVec Ideal ⟨2, ![K, N]⟩ φ₄) (b : FVec Ideal ⟨1, ![N]⟩ .f32)
    (h₁ : (⟨1, ![N]⟩ : Shape).ShapeCasts ⟨2, ![1, N]⟩) (h₂ : (⟨2, ![1, N]⟩ : Shape).Broadcasts ⟨2, ![M, N]⟩)
    (p : Fin M) (n : Fin N) :
    maximumf
        (addf
          (addf (FloatOps.matmul (Cert.LibPlainDot.dims wf) none l₁ r₁ (constant ⟨2, ![M, N]⟩ .f32 0x00000000#32))
            (FloatOps.matmul (Cert.LibPlainDot.dims wf) none l₂ r₂ (constant ⟨2, ![M, N]⟩ .f32 0x00000000#32)))
          (broadcastTo ⟨2, ![M, N]⟩ (shapeCast ⟨2, ![1, N]⟩ b h₁) h₂))
        (broadcast ⟨2, ![M, N]⟩ (Scalar.ofBits (F := Ideal) .f32 0x00000000#32)) (ix2 p n)
      = max (((∑ k : Fin K, l₁ (ix2 p k) * r₁ (ix2 k n)) + ∑ k : Fin K, l₂ (ix2 p k) * r₂ (ix2 k n)) + b (ix1 n)) 0 :=
  (maximumf_apply _ _ _).trans (congrArg₂ max
    ((addf_apply _ _ _).trans (congrArg₂ (· + ·)
      ((addf_apply _ _ _).trans (congrArg₂ (· + ·) (Cert.LibPlainDot.matmul_zero_apply wf none l₁ r₁ p n)
        (Cert.LibPlainDot.matmul_zero_apply wf none l₂ r₂ p n)))
      (row_of_vector_broadcast_apply b h₁ h₂ p n)))
    Ideal.ofBits_zero_f32)

/-- The sum divided by the larger of the count and the word 1.0, the count's column laid across the row: at (p, l). -/
private theorem average_apply {a b : ℕ} (acc : FVec Ideal ⟨2, ![a, b]⟩ .f32) (cnt : FVec Ideal ⟨2, ![a, 1]⟩ .f32)
    (h : (⟨2, ![a, 1]⟩ : Shape).Broadcasts ⟨2, ![a, b]⟩) (p : Fin a) (l : Fin b) :
    divf acc (broadcastTo ⟨2, ![a, b]⟩
        (maximumf cnt (broadcast ⟨2, ![a, 1]⟩ (Scalar.ofBits (F := Ideal) .f32 0x3F800000#32))) h) (ix2 p l)
      = Ideal.div (acc (ix2 p l)) (max (cnt (ix2 p (0 : Fin 1))) oneW) :=
  (divf_apply _ _ _).trans (congrArg (Ideal.div (acc (ix2 p l))) (column_broadcast_apply _ h p l))

/-- The zero block the sum is reset to. -/
theorem pay1_apply (j : S512x256.Idx) : k0_pay1 (F := Ideal) j = 0 := by
  unfold k0_pay1
  exact (congrFun (shapeCast_self _ _) j).trans Ideal.ofBits_zero_f32

/-- The zero column the count is reset to. -/
theorem pay2_apply (j : S512x1.Idx) : k0_pay2 (F := Ideal) j = 0 := by
  unfold k0_pay2
  exact (congrFun (shapeCast_self _ _) j).trans Ideal.ofBits_zero_f32

/-- The block of matches: row p's hash word against column q's. -/
theorem pay3_apply (x2 : Vec Ideal S512x1 .i32) (x3 : Vec Ideal S1x2048 .i32) (p : Fin 512) (q : Fin 2048) :
    k0_pay3 (F := Ideal) x2 x3 (ix2 p q) = ind (x2 (ix2 p (0 : Fin 1))) (x3 (ix2 (0 : Fin 1) q)) := by
  unfold k0_pay3
  refine Eq.trans ?_ (ind_signed _ _)
  exact congrArg₂ (fun a b : BitVec 32 => FloatOps.sitofp (F := Ideal) .f32 ((IntOp.cmpi .eq a b).setWidth 32))
    (column_self_broadcast_apply x2 _ _ p q) (Cert.LibKeepdims.row_broadcast_apply x3 _ _ p q)

/-- The count after a point: what it was plus the row's matches among the point's 2048 columns. -/
theorem pay4_apply (x2 : Vec Ideal S512x1 .i32) (x3 : Vec Ideal S1x2048 .i32) (xs1 : Vec Ideal S512x1 .f32) (p : Fin 512) :
    k0_pay4 (F := Ideal) x2 x3 xs1 (ix2 p (0 : Fin 1))
      = xs1 (ix2 p (0 : Fin 1)) + ∑ q : Fin 2048, ind (x2 (ix2 p (0 : Fin 1))) (x3 (ix2 (0 : Fin 1) q)) := by
  unfold k0_pay4
  refine (congrFun (shapeCast_self _ _) _).trans ?_
  refine congrArg (fun t => xs1 (ix2 p (0 : Fin 1)) + t) ?_
  refine (shapeCast_apply _ _ (ix2 p (0 : Fin 1)) (ix1 p) ?_).trans ?_
  · rw [Shape.rowMajor_val_one, Shape.rowMajor_val_two]
    show p.val = p.val * 1 + 0
    omega
  refine (Cert.LibKeepdims.lane_sum_apply _ _ _ _ p).trans ?_
  exact Finset.sum_congr rfl fun q _ => pay3_apply x2 x3 p q

/-- The sum after a point: what it was plus the matched rows of the point's 2048, at coordinate d. -/
theorem pay5_apply (x2 : Vec Ideal S512x1 .i32) (x3 : Vec Ideal S1x2048 .i32) (x1 : Vec Ideal S2048x256 .f32)
    (xs0 : Vec Ideal S512x256 .f32) (p : Fin 512) (d : Fin 256) :
    k0_pay5 (F := Ideal) x2 x3 x1 xs0 (ix2 p d)
      = xs0 (ix2 p d) + ∑ q : Fin 2048, ind (x2 (ix2 p (0 : Fin 1))) (x3 (ix2 (0 : Fin 1) q)) * x1 (ix2 q d) := by
  unfold k0_pay5
  refine (congrFun (shapeCast_self _ _) _).trans ?_
  refine congrArg (fun t => xs0 (ix2 p d) + t) ?_
  refine (Cert.LibPlainDot.matmul_zero_apply dot_S512x2048_S2048x256_S512x256_1_0_0_1_n_n_wf none _ _ p d).trans ?_
  exact Finset.sum_congr rfl fun q _ => congrArg (· * x1 (ix2 q d)) (pay3_apply x2 x3 p q)

/-- The first layer of a row block's last point: the row's own 256 coordinates and the average's 256 contracted
    separately against the two halves of the weights, the bias added, clamped at zero from below. -/
def hidBlk (acc : Vec Ideal S512x256 .f32) (cnt : Vec Ideal S512x1 .f32) (x0 : Vec Ideal S512x256 .f32)
    (x4 : Vec Ideal S512x512 .f32) (x5 : Vec Ideal S512 .f32) (p : Fin 512) (n : Fin 512) : EReal :=
  max (((∑ l : Fin 256, x0 (ix2 p l) * x4 (ix2 (⟨l.val, by have := l.isLt; omega⟩ : Fin 512) n))
        + ∑ l : Fin 256, Ideal.div (acc (ix2 p l)) (max (cnt (ix2 p (0 : Fin 1))) oneW)
            * x4 (ix2 (⟨256 + l.val, by have := l.isLt; omega⟩ : Fin 512) n))
      + x5 (ix1 n)) 0

/-- The output block at row p, column n: the three layers applied to the row beside its matches' average. -/
theorem pay6_apply (acc : Vec Ideal S512x256 .f32) (cnt : Vec Ideal S512x1 .f32) (x0 : Vec Ideal S512x256 .f32)
    (x4 : Vec Ideal S512x512 .f32) (x5 : Vec Ideal S512 .f32) (x6 : Vec Ideal S512x256 .f32) (x7 : Vec Ideal S256 .f32)
    (x8 : Vec Ideal S256x256 .f32) (x9 : Vec Ideal S256 .f32) (p : Fin 512) (n : Fin 256) :
    k0_pay6 (F := Ideal) acc cnt x0 x4 x5 x6 x7 x8 x9 (ix2 p n)
      = outOf x8 x9 (relOf x6 x7 (hidBlk acc cnt x0 x4 x5 p)) n := by
  unfold k0_pay6
  -- the third layer
  refine (product_bias_apply dot_S512x256_S256x256_S512x256_1_0_0_1_n_n_wf _ _ x9 _ _ p n).trans ?_
  unfold outOf
  refine congrArg (· + x9 (ix1 n)) (Finset.sum_congr rfl fun k _ => congrArg (· * x8 (ix2 k n)) ?_)
  -- the second layer
  refine (product_bias_apply dot_S512x512_S512x256_S512x256_1_0_0_1_n_n_wf _ _ x7 _ _ p k).trans ?_
  unfold relOf
  refine congrArg (· + x7 (ix1 k)) (Finset.sum_congr rfl fun m _ => congrArg (· * x6 (ix2 m k)) ?_)
  -- the first layer
  refine (two_products_bias_clamp_apply dot_S512x256_S256x512_S512x512_1_0_0_1_n_n_wf _ _ _ _ x5 _ _ p m).trans ?_
  unfold hidBlk
  refine congrArg (fun t => max (t + x5 (ix1 m)) 0) (congrArg₂ (· + ·) ?_ ?_)
  · exact Finset.sum_congr rfl fun l _ => congrArg (x0 (ix2 p l) * ·)
      (slice2_axis0_apply 0 _ _ l m ⟨l.val, by have := l.isLt; omega⟩ (Nat.zero_add _).symm)
  · exact Finset.sum_congr rfl fun l _ => congrArg₂ (· * ·) (average_apply acc cnt _ p l)
      (slice2_axis0_apply 256 _ _ l m ⟨256 + l.val, by have := l.isLt; omega⟩ rfl)

end Cert.KernelIdeal.Pay

end
-- ==== Proof.KerIndex.lean ====
/-
  The output block of row block i, read at a row p and a column n, is the encoder at row 512 i + p.

  After the four grid points of row block i the running count at row p holds the matches of table row 512 i + p among
  all 8192 rows of the second table, stretch by stretch, and the running sum holds the matched rows' sum; the closing
  arithmetic of the last point then is the encoder's, with the first table's row block, the weights and the biases
  read through their windows.
-/
import proofs.«143300_j44341242364566_1_alg».proof.Proof.KerFold
import proofs.«143300_j44341242364566_1_alg».proof.Proof.KerBlocks
import proofs.«143300_j44341242364566_1_alg».proof.Proof.KerPayload
import proofs.«143300_j44341242364566_1_alg».proof.Proof.Spec

set_option maxRecDepth 16384

noncomputable section

namespace Cert.KernelIdeal.Index

open Cert.KernelIdeal Cert.KernelIdeal.Gen Idealize.ShloMosaic Idealize.ShloMosaic.TcCoe Idealize.SL.Sem
  Idealize.ShloMosaic.ValueIdx Cert.RelEnc

variable (m : (ℓ : Loc nD τ sig) → Buf (Elt Ideal) ℓ)

/-- The hash column and the hash row as the region finds them. -/
abbrev hcArr (c : Dev nD) : IVec S4096x1 32 := V m c main_v4
abbrev hrArr (c : Dev nD) : IVec S1x8192 32 := V m c main_v5

/-- Table row 512 i + p. -/
abbrev row (i : Fin 8) (p : Fin 512) : Fin 4096 := ⟨512 * i.val + p.val, by have := i.isLt; have := p.isLt; omega⟩

/-- The matches of table row 512 i + p within stretch k of the second table. -/
private abbrev stretchCnt (c : Dev nD) (i : Fin 8) (p : Fin 512) (k : ℕ) (h : k < 4) : EReal :=
  ∑ q : Fin 2048, mk (hcArr m c) (hrArr m c) (row i p) ⟨2048 * k + q.val, by have := q.isLt; omega⟩

/-- The matched rows' sum at coordinate d within stretch k of the second table. -/
private abbrev stretchSum (c : Dev nD) (i : Fin 8) (p : Fin 512) (d : Fin 256) (k : ℕ) (h : k < 4) : EReal :=
  ∑ q : Fin 2048, mk (hcArr m c) (hrArr m c) (row i p) ⟨2048 * k + q.val, by have := q.isLt; omega⟩
    * m ((c : Thread nD τ).loc main_arg1) (ix2 (⟨2048 * k + q.val, by have := q.isLt; omega⟩ : Fin 8192) d)

/-- The k-th point of row block i reads the hash column at table row 512 i + p and the hash row at 2048 k + q. -/
private theorem ind_blocks (c : Dev nD) (i : Fin 8) (k : ℕ) (h : k < 4) (p : Fin 512) (q : Fin 2048) :
    ind ((iblk m c 2 (Fold.pt i k h) : Vec Ideal S512x1 .i32) (ix2 p (0 : Fin 1)))
        ((iblk m c 3 (Fold.pt i k h) : Vec Ideal S1x2048 .i32) (ix2 (0 : Fin 1) q))
      = mk (hcArr m c) (hrArr m c) (row i p) ⟨2048 * k + q.val, by have := q.isLt; omega⟩ := by
  unfold mk
  refine congrArg₂ ind ((Blocks.blk2_apply m c (Fold.pt i k h) p).trans ?_)
    ((Blocks.blk3_apply m c (Fold.pt i k h) q).trans ?_)
  · exact congrArg (fun r : Fin 4096 => hcArr m c (ix2 r (0 : Fin 1)))
      (Fin.ext (by show 512 * ((4 * i.val + k) / 4) + p.val = 512 * i.val + p.val; omega))
  · exact congrArg (fun j : Fin 8192 => hrArr m c (ix2 (0 : Fin 1) j))
      (Fin.ext (by show 2048 * ((4 * i.val + k) % 4) + q.val = 2048 * k + q.val; omega))

/-- One point's update of the count, at row p. -/
private theorem cnt_step (c : Dev nD) (i : Fin 8) (k : ℕ) (h : k < 4) (prev : Vec Ideal S512x1 .f32) (p : Fin 512) :
    k0_pay4 (F := Ideal) (iblk m c 2 (Fold.pt i k h)) (iblk m c 3 (Fold.pt i k h)) prev (ix2 p (0 : Fin 1))
      = prev (ix2 p (0 : Fin 1)) + stretchCnt m c i p k h :=
  (Pay.pay4_apply _ _ prev p).trans (congrArg (prev (ix2 p (0 : Fin 1)) + ·)
    (Finset.sum_congr rfl fun q _ => ind_blocks m c i k h p q))

/-- One point's update of the sum, at row p and coordinate d. -/
private theorem sum_step (c : Dev nD) (i : Fin 8) (k : ℕ) (h : k < 4) (prev : Vec Ideal S512x256 .f32) (p : Fin 512)
    (d : Fin 256) :
    k0_pay5 (F := Ideal) (iblk m c 2 (Fold.pt i k h)) (iblk m c 3 (Fold.pt i k h)) (iblk m c 1 (Fold.pt i k h)) prev (ix2 p d)
      = prev (ix2 p d) + stretchSum m c i p d k h :=
  (Pay.pay5_apply _ _ _ prev p d).trans (congrArg (prev (ix2 p d) + ·)
    (Finset.sum_congr rfl fun q _ => congrArg₂ (· * ·) (ind_blocks m c i k h p q)
      ((Blocks.blk1_apply m c (Fold.pt i k h) q d).trans
        (congrArg (fun j : Fin 8192 => m ((c : Thread nD τ).loc main_arg1) (ix2 j d))
          (Fin.ext (by show 2048 * ((4 * i.val + k) % 4) + q.val = 2048 * k + q.val; omega))))))

/-- The finished count of row block i at row p: the matches of table row 512 i + p, stretch by stretch. -/
theorem cnt_apply (c : Dev nD) (i : Fin 8) (p : Fin 512) :
    Fold.cntAt m c i 3 (by decide) (ix2 p (0 : Fin 1)) = kerCnt (hcArr m c) (hrArr m c) (row i p) := by
  have e0 : Fold.cntAt m c i 0 (by decide) (ix2 p (0 : Fin 1)) = 0 + stretchCnt m c i p 0 (by decide) :=
    (cnt_step m c i 0 (by decide) _ p).trans (congrArg (· + stretchCnt m c i p 0 (by decide)) (Pay.pay2_apply _))
  have e1 : Fold.cntAt m c i 1 (by decide) (ix2 p (0 : Fin 1))
      = 0 + stretchCnt m c i p 0 (by decide) + stretchCnt m c i p 1 (by decide) :=
    (cnt_step m c i 1 (by decide) _ p).trans (congrArg (· + stretchCnt m c i p 1 (by decide)) e0)
  have e2 : Fold.cntAt m c i 2 (by decide) (ix2 p (0 : Fin 1))
      = 0 + stretchCnt m c i p 0 (by decide) + stretchCnt m c i p 1 (by decide) + stretchCnt m c i p 2 (by decide) :=
    (cnt_step m c i 2 (by decide) _ p).trans (congrArg (· + stretchCnt m c i p 2 (by decide)) e1)
  have e3 : Fold.cntAt m c i 3 (by decide) (ix2 p (0 : Fin 1))
      = 0 + stretchCnt m c i p 0 (by decide) + stretchCnt m c i p 1 (by decide) + stretchCnt m c i p 2 (by decide)
        + stretchCnt m c i p 3 (by decide) :=
    (cnt_step m c i 3 (by decide) _ p).trans (congrArg (· + stretchCnt m c i p 3 (by decide)) e2)
  refine e3.trans ?_
  unfold kerCnt sum4
  rw [Fin.sum_univ_four, zero_add]
  rfl

/-- The finished sum of row block i at row p, coordinate d: the matched rows' sum, stretch by stretch. -/
theorem sum_apply (c : Dev nD) (i : Fin 8) (p : Fin 512) (d : Fin 256) :
    Fold.sumAt m c i 3 (by decide) (ix2 p d)
      = sum4 fun j => mk (hcArr m c) (hrArr m c) (row i p) j * m ((c : Thread nD τ).loc main_arg1) (ix2 j d) := by
  have e0 : Fold.sumAt m c i 0 (by decide) (ix2 p d) = 0 + stretchSum m c i p d 0 (by decide) :=
    (sum_step m c i 0 (by decide) _ p d).trans (congrArg (· + stretchSum m c i p d 0 (by decide)) (Pay.pay1_apply _))
  have e1 : Fold.sumAt m c i 1 (by decide) (ix2 p d)
      = 0 + stretchSum m c i p d 0 (by decide) + stretchSum m c i p d 1 (by decide) :=
    (sum_step m c i 1 (by decide) _ p d).trans (congrArg (· + stretchSum m c i p d 1 (by decide)) e0)
  have e2 : Fold.sumAt m c i 2 (by decide) (ix2 p d)
      = 0 + stretchSum m c i p d 0 (by decide) + stretchSum m c i p d 1 (by decide) + stretchSum m c i p d 2 (by decide) :=
    (sum_step m c i 2 (by decide) _ p d).trans (congrArg (· + stretchSum m c i p d 2 (by decide)) e1)
  have e3 : Fold.sumAt m c i 3 (by decide) (ix2 p d)
      = 0 + stretchSum m c i p d 0 (by decide) + stretchSum m c i p d 1 (by decide) + stretchSum m c i p d 2 (by decide)
        + stretchSum m c i p d 3 (by decide) :=
    (sum_step m c i 3 (by decide) _ p d).trans (congrArg (· + stretchSum m c i p d 3 (by decide)) e2)
  refine e3.trans ?_
  unfold sum4
  rw [Fin.sum_univ_four, zero_add]
  rfl

/-- The two later layers read through equal weights and biases, of equal hidden rows, agree. -/
private theorem layers_congr {Wo Wo' : FVec Ideal ⟨2, ![256, 256]⟩ .f32} {bo bo' : FVec Ideal ⟨1, ![256]⟩ .f32}
    {W2 W2' : FVec Ideal ⟨2, ![512, 256]⟩ .f32} {b2 b2' : FVec Ideal ⟨1, ![256]⟩ .f32} {H H' : Fin 512 → EReal}
    (eWo : Wo = Wo') (ebo : bo = bo') (eW2 : W2 = W2') (eb2 : b2 = b2') (eH : H = H') (n : Fin 256) :
    outOf Wo bo (relOf W2 b2 H) n = outOf Wo' bo' (relOf W2' b2' H') n := by
  subst eWo ebo eW2 eb2 eH; rfl

/-- The first layer of the last point is the encoder's, once the finished sum and count and the row's block are read
    as the tables' entries. -/
private theorem hid_congr (acc : Vec Ideal S512x256 .f32) (cnt : Vec Ideal S512x1 .f32) (x0 : Vec Ideal S512x256 .f32)
    (x4 : Vec Ideal S512x512 .f32) (x5 : Vec Ideal S512 .f32)
    (hc : (⟨2, ![4096, 1]⟩ : Shape).Idx → BitVec 32) (hr : (⟨2, ![1, 8192]⟩ : Shape).Idx → BitVec 32)
    (a : FVec Ideal ⟨2, ![4096, 256]⟩ .f32) (b : FVec Ideal ⟨2, ![8192, 256]⟩ .f32)
    (W1 : FVec Ideal ⟨2, ![512, 512]⟩ .f32) (b1 : FVec Ideal ⟨1, ![512]⟩ .f32) (p : Fin 512) (r : Fin 4096) (l : Fin 512)
    (e4 : x4 = W1) (e5 : x5 = b1) (e0 : ∀ l' : Fin 256, x0 (ix2 p l') = a (ix2 r l'))
    (eacc : ∀ d : Fin 256, acc (ix2 p d) = sum4 fun j => mk hc hr r j * b (ix2 j d))
    (ecnt : cnt (ix2 p (0 : Fin 1)) = kerCnt hc hr r) :
    Pay.hidBlk acc cnt x0 x4 x5 p l = kerHid hc hr a b W1 b1 r l := by
  subst e4 e5
  unfold Pay.hidBlk kerHid kerAgg
  rw [ecnt]
  refine congrArg (fun t => max (t + x5 (ix1 l)) 0) (congrArg₂ (· + ·) ?_ ?_)
  · refine Finset.sum_congr rfl fun l' _ => ?_
    rw [e0 l']
  · refine Finset.sum_congr rfl fun l' _ => ?_
    rw [eacc l']

/-- The output block of row block i at (p, n) is the encoder at (512 i + p, n). -/
theorem block_apply (c : Dev nD) (i : Fin 8) (p : Fin 512) (n : Fin 256) :
    k0_pay6 (F := Ideal) (Fold.sumAt m c i 3 (by decide)) (Fold.cntAt m c i 3 (by decide))
        (iblk m c 0 (Fold.pt i 3 (by decide))) (iblk m c 4 (Fold.pt i 3 (by decide))) (iblk m c 5 (Fold.pt i 3 (by decide)))
        (iblk m c 6 (Fold.pt i 3 (by decide))) (iblk m c 7 (Fold.pt i 3 (by decide))) (iblk m c 8 (Fold.pt i 3 (by decide)))
        (iblk m c 9 (Fold.pt i 3 (by decide))) (ix2 p n)
      = kerOut (hcArr m c) (hrArr m c) (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (ix2 (row i p) n) := by
  refine (Pay.pay6_apply _ _ _ _ _ _ _ _ _ p n).trans ?_
  refine layers_congr (Blocks.blk8_eq m c _) (Blocks.blk9_eq m c _) (Blocks.blk6_eq m c _) (Blocks.blk7_eq m c _)
    (funext fun l => ?_) n
  refine hid_congr _ _ _ _ _ (hcArr m c) (hrArr m c) (m ((c : Thread nD τ).loc main_arg0))
    (m ((c : Thread nD τ).loc main_arg1)) _ _ p (row i p) l (Blocks.blk4_eq m c _) (Blocks.blk5_eq m c _)
    (fun l' => ?_) (fun d => sum_apply m c i p d) (cnt_apply m c i p)
  exact (Blocks.blk0_apply m c (Fold.pt i 3 (by decide)) p l').trans
    (congrArg (fun r : Fin 4096 => m ((c : Thread nD τ).loc main_arg0) (ix2 r l'))
      (Fin.ext (by show 512 * ((4 * i.val + 3) / 4) + p.val = 512 * i.val + p.val; omega)))

end Cert.KernelIdeal.Index

end
-- ==== Proof.Hash.lean ====
/-
  The hash words of a table's key rows.

  Each row's four key words are added and the sum is taken modulo 1024 the way jnp's `%` does it: the machine
  remainder (which carries the dividend's sign), moved up by the divisor when it is nonzero and its sign differs from
  the divisor's; a zero divisor would be replaced by one.  Both programs spell exactly these operations, on the host,
  over the two key arrays; here they are one function of a key array with any number of rows.
-/
import Idealize.ShloMosaic.PureOps.Vector
import Idealize.ShloMosaic.PureOps.Contract
import Idealize.ShloMosaic.PureOps.ShapeOps

noncomputable section

namespace Cert.RelEnc

open Idealize.ShloMosaic

/-- The hash word of every row of a key array of `n` rows. -/
def hashVec {n : ℕ} (hred : (⟨2, ![n, 4]⟩ : Shape).ReducesTo [1] ⟨1, ![n]⟩) (hpos : 0 < (⟨0, ![]⟩ : Shape).numel)
    (hb : (⟨0, ![]⟩ : Shape).BroadcastsInDim ⟨1, ![n]⟩ (![] : Fin 0 → Fin (⟨1, ![n]⟩ : Shape).rank))
    (keys : IVec ⟨2, ![n, 4]⟩ 32) : IVec ⟨1, ![n]⟩ 32 :=
  let s : IVec ⟨1, ![n]⟩ 32 := Host.reduce IntOp.addi keys (constantI ⟨0, ![]⟩ 32 0#32) hred hpos
  let d0 : IVec ⟨0, ![]⟩ 32 := id (constantI ⟨0, ![]⟩ 32 1024#32)
  let d : IVec ⟨0, ![]⟩ 32 := select (cmpi .eq d0 (constantI ⟨0, ![]⟩ 32 0#32)) (constantI ⟨0, ![]⟩ 32 1#32) d0
  let r : IVec ⟨1, ![n]⟩ 32 := Host.remsi s (broadcastInDim ⟨1, ![n]⟩ ![] hb d)
  let nonzero : IVec ⟨1, ![n]⟩ 1 := cmpi .ne r (broadcastInDim ⟨1, ![n]⟩ ![] hb (constantI ⟨0, ![]⟩ 32 0#32))
  let negative : IVec ⟨1, ![n]⟩ 1 := cmpi .slt r (broadcastInDim ⟨1, ![n]⟩ ![] hb (constantI ⟨0, ![]⟩ 32 0#32))
  let divisorNegative : IVec ⟨1, ![n]⟩ 1 :=
    broadcastInDim ⟨1, ![n]⟩ ![] hb (cmpi .slt d (constantI ⟨0, ![]⟩ 32 0#32))
  select (andi (cmpi .ne negative divisorNegative) nonzero) (addi r (broadcastInDim ⟨1, ![n]⟩ ![] hb d)) r

end Cert.RelEnc

end
-- ==== Proof.KerFinal.lean ====
/-
  The kernel program's result array, after every weakly fair execution, is the encoder of its arguments.

  The host part of the program hashes the two key arrays into a column and a row; the region then runs over the
  grid.  Only the last point of each row block writes its output block back, and that block is the encoder's rows
  512 i … 512 i + 511; the eight blocks cover the array.
-/
import proofs.«143300_j44341242364566_1_alg».proof.Proof.KerIndex
import proofs.«143300_j44341242364566_1_alg».proof.Proof.Hash
import proofs.«143300_j44341242364566_1_alg».proof.Proof.Gen.KernelIdeal.Value
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem
  Idealize.ShloMosaic.ValueIdx Idealize.ShloMosaic.StableHlo Cert.RelEnc
open Idealize.ShloMosaic.Pipeline (Dat)

variable (m : (ℓ : Loc nD τ sig) → Buf (Elt Ideal) ℓ) (ρ : Dev nD → PrngReg)

/-- The first table's hash words as the column the region's window stages. -/
def hashCol (ka : IVec S4096x4 32) : IVec S4096x1 32 :=
  shapeCast S4096x1 (hashVec reducesTo_S4096x4_S4096_d1 h_S_ bcast_S_S4096 ka) shapeCasts_S4096_S4096x1

/-- The second table's hash words as the row the region's window stages. -/
def hashRow (kb : IVec S8192x4 32) : IVec S1x8192 32 :=
  shapeCast S1x8192 (hashVec reducesTo_S8192x4_S8192_d1 h_S_ bcast_S_S8192 kb) shapeCasts_S8192_S1x8192

/-- The host operations before the region leave the hash column in its buffer. -/
theorem V_main_v4 (c : Dev nD) : V m c main_v4 = hashCol (m ((c : Thread nD τ).loc main_arg2)) := by
  dsimp only [V]
  simp only [hostOps0, hostOps0_1, hostOps0_2, hostOps0_3, hostOps0_4, List.flatten_cons, List.flatten_nil,
    List.append_nil, List.cons_append, List.nil_append]
  after_results_simp
  unfold hashCol hashVec
  simp only [TRef.ofBuf, TRef.toBuf, cast_eq, id_eq]
  rfl

/-- The host operations before the region leave the hash row in its buffer. -/
theorem V_main_v5 (c : Dev nD) : V m c main_v5 = hashRow (m ((c : Thread nD τ).loc main_arg3)) := by
  dsimp only [V]
  simp only [hostOps0, hostOps0_1, hostOps0_2, hostOps0_3, hostOps0_4, List.flatten_cons, List.flatten_nil,
    List.append_nil, List.cons_append, List.nil_append]
  after_results_simp
  unfold hashRow hashVec
  simp only [TRef.ofBuf, TRef.toBuf, cast_eq, id_eq]
  rfl

/-- What the result array ends holding. -/
abbrev result (c : Dev nD) : Buf (Elt Ideal) ((c : Thread nD τ).loc main_v6) :=
  kerOut (hashCol (m ((c : Thread nD τ).loc main_arg2))) (hashRow (m ((c : Thread nD τ).loc main_arg3))) (m ((c : Thread nD τ).loc main_arg0)) (m ((c : Thread nD τ).loc main_arg1))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem idx10 : ∀ t : Fin cfg0.N, win0_10.index t (0 : Fin 2) = t.val / 4 ∧ win0_10.index t (1 : Fin 2) = 0 :=
  (by decide +kernel : ∀ t : Fin grid0.N, win0_10.index t (0 : Fin 2) = t.val / 4 ∧ win0_10.index t (1 : Fin 2) = 0)

/-- What a writing point writes back is its block of the encoder. -/
theorem flushed_eq (c : Dev nD) (t : Fin cfg0.N) (hf : (cfg0.win 10).flush t = true) :
    (dats m 0 c).flushed 10 t = ((cfg0.win 10).blk t).view.read (Elt Ideal) (result m c) := by
  have h3 : t.val % 4 = 3 := (flush0_10 t).mp hf
  have h32 : t.val < 32 := Blocks.lt32 t
  let i : Fin 8 := ⟨t.val / 4, by omega⟩
  have ht : t.val = 4 * i.val + 3 := by show t.val = 4 * (t.val / 4) + 3; omega
  rw [Value.flushed10]
  funext j
  obtain ⟨p, n, rfl⟩ : ∃ (p : Fin 512) (n : Fin 256), j = ix2 p n := ⟨j 0, j 1, eq_ix2 j⟩
  show (outsAt0 m c t.val t.isLt).1 (ix2 p n) = result m c (((cfg0.win 10).blk t).view.emb (ix2 p n))
  rw [Fold.outsAt_congr m c t.val (4 * i.val + 3) t.isLt (Fold.lt_N i 3 (by decide)) ht, Fold.out_eq,
    Index.block_apply m c i p n]
  unfold result
  rw [← V_main_v4, ← V_main_v5]
  refine congrArg _ (funext fun a => Fin.ext ?_)
  match a with
  | ⟨0, _⟩ =>
    show 512 * i.val + p.val = win0_10.index t 0 * 512 + 1 * p.val
    rw [(idx10 t).1]; show 512 * (t.val / 4) + p.val = t.val / 4 * 512 + 1 * p.val; omega
  | ⟨1, _⟩ =>
    show n.val = win0_10.index t 1 * 256 + 1 * n.val
    rw [(idx10 t).2]; omega

/-- An index of the array is in point t's block iff each coordinate is in the block's range on its axis. -/
theorem mem_blk (t : Fin cfg0.N) (i : S4096x256.Idx) :
    i ∈ ((cfg0.win 10).blk t).view.set ↔ ∀ a : Fin 2, win0_10.index t a * S512x256.size a ≤ (i a).val
      ∧ (i a).val < win0_10.index t a * S512x256.size a + S512x256.size a := by
  show i ∈ ((View.whole main_v6).slice (win0_10.rect t)).set ↔ _
  rw [View.set_slice_whole, Rect.mem_set_unit]
  exact Iff.rfl

/-- Every index of the array lies in the block of its row block's last point. -/
theorem cover (i : S4096x256.Idx) :
    ∃ t : Fin cfg0.N, (cfg0.win 10).flush t = true ∧ i ∈ ((cfg0.win 10).blk t).view.set := by
  have hi0 : (i 0).val < 4096 := (i 0).isLt
  have hi1 : (i 1).val < 256 := (i 1).isLt
  let t : Fin cfg0.N := ⟨4 * ((i 0).val / 512) + 3, by rw [show cfg0.N = 32 from N_0]; omega⟩
  refine ⟨t, (flush0_10 t).mpr (by show (4 * ((i 0).val / 512) + 3) % 4 = 3; omega), ?_⟩
  rw [mem_blk]
  intro a
  match a with
  | ⟨0, _⟩ =>
    show win0_10.index t 0 * 512 ≤ (i 0).val ∧ (i 0).val < win0_10.index t 0 * 512 + 512
    rw [(idx10 t).1]; show (4 * ((i 0).val / 512) + 3) / 4 * 512 ≤ (i 0).val ∧ (i 0).val < (4 * ((i 0).val / 512) + 3) / 4 * 512 + 512
    omega
  | ⟨1, _⟩ =>
    show win0_10.index t 1 * 256 ≤ (i 1).val ∧ (i 1).val < win0_10.index t 1 * 256 + 256
    rw [(idx10 t).2]; omega

/-- The result array after the run. -/
theorem final (c : Dev nD) : (dats m 0 c).arrAt 10 cfg0.N = result m c :=
  (dats m 0 c).arrAt_eq_of_cover 10 (result m c) (flushed_eq m c) cover

/-- Every weakly fair execution of the kernel program ends with the result at the encoder of its arguments, the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KerValue

end
-- ==== Proof.RefOps.lean ====
/- The 79 host operations of the reference's @main in program order; a module-local function's operations stand at its
   call site over that call's buffer record.  Beside it, for each operation, the library lemma that its buffers are
   TensorCore references. -/
import proofs.«143300_j44341242364566_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ StableHlo.nullary main_c (constantI S_ 32 0#32),
    StableHlo.binary main_arg2 main_c main_v0 ((fun x v => Host.reduce IntOp.addi x v reducesTo_S4096x4_S4096_d1 h_S_) : (⟨S4096x4, .i32⟩ : BufTy).Contents (Elt F) → (⟨S_, .i32⟩ : BufTy).Contents (Elt F) → (⟨S4096, .i32⟩ : BufTy).Contents (Elt F)),
    StableHlo.nullary main_c_0 (constantI S_ 32 1024#32),
    StableHlo.TRef.unary (.of main_c_0) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S4096 ![] bcast_S_S4096),
    StableHlo.TRef.binary (.of main_v0) main_call0.v3 main_call0.v4 Host.remsi,
    StableHlo.TRef.nullary main_call0.c_1 (constantI S_ 32 0#32),
    StableHlo.TRef.unary main_call0.c_1 main_call0.v5 (broadcastInDim S4096 ![] bcast_S_S4096),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S4096 ![] bcast_S_S4096),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S4096 ![] bcast_S_S4096),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S4096 ![] bcast_S_S4096),
    StableHlo.TRef.binary main_call0.v4 main_call0.v13 main_call0.v14 addi,
    StableHlo.TRef.ternary main_call0.v12 main_call0.v14 main_call0.v4 main_call0.v15 select,
    StableHlo.nullary main_c_1 (constantI S_ 32 0#32),
    StableHlo.binary main_arg3 main_c_1 main_v2 ((fun x v => Host.reduce IntOp.addi x v reducesTo_S8192x4_S8192_d1 h_S_) : (⟨S8192x4, .i32⟩ : BufTy).Contents (Elt F) → (⟨S_, .i32⟩ : BufTy).Contents (Elt F) → (⟨S8192, .i32⟩ : BufTy).Contents (Elt F)),
    StableHlo.nullary main_c_2 (constantI S_ 32 1024#32),
    StableHlo.TRef.unary (.of main_c_2) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (.of main_v2) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select,
    StableHlo.unary main_v1 main_v4 (broadcastInDim S4096x1 ![0] bcast_S4096_S4096x1_0 : (⟨S4096, .i32⟩ : BufTy).Contents (Elt F) → (⟨S4096x1, .i32⟩ : BufTy).Contents (Elt F)),
    StableHlo.unary main_v3 main_v5 (broadcastInDim S1x8192 ![1] bcast_S8192_S1x8192_1 : (⟨S8192, .i32⟩ : BufTy).Contents (Elt F) → (⟨S1x8192, .i32⟩ : BufTy).Contents (Elt F)),
    StableHlo.unary main_v4 main_v6 (broadcastInDim S4096x8192 ![0, 1] bcast_S4096x1_S4096x8192_0_1 : (⟨S4096x1, .i32⟩ : BufTy).Contents (Elt F) → (⟨S4096x8192, .i32⟩ : BufTy).Contents (Elt F)),
    StableHlo.unary main_v5 main_v7 (broadcastInDim S4096x8192 ![0, 1] bcast_S1x8192_S4096x8192_0_1 : (⟨S1x8192, .i32⟩ : BufTy).Contents (Elt F) → (⟨S4096x8192, .i32⟩ : BufTy).Contents (Elt F)),
    StableHlo.binary main_v6 main_v7 main_v8 (cmpi .eq : (⟨S4096x8192, .i32⟩ : BufTy).Contents (Elt F) → (⟨S4096x8192, .i32⟩ : BufTy).Contents (Elt F) → (⟨S4096x8192, .i1⟩ : BufTy).Contents (Elt F)),
    StableHlo.unary main_v8 main_v9 (uitofp .f32 : (⟨S4096x8192, .i1⟩ : BufTy).Contents (Elt F) → (⟨S4096x8192, .f32⟩ : BufTy).Contents (Elt F)),
    StableHlo.nullary main_cst (constant S_ .f32 0x00000000#32),
    StableHlo.binary main_v9 main_cst main_v10 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.unary main_v10 main_v11 (broadcastInDim S4096x1 ![0] bcast_S4096_S4096x1_0 : (⟨S4096, .f32⟩ : BufTy).Contents (Elt F) → (⟨S4096x1, .f32⟩ : BufTy).Contents (Elt F)),
    StableHlo.binary main_v9 main_arg1 main_v12 ((fun l r => Host.dotGeneral dot_S4096x8192_S8192x256_S4096x256_1_0_0_1_n_n none l r) : (⟨S4096x8192, .f32⟩ : BufTy).Contents (Elt F) → (⟨S8192x256, .f32⟩ : BufTy).Contents (Elt F) → (⟨S4096x256, .f32⟩ : BufTy).Contents (Elt F)),
    StableHlo.nullary main_cst_3 (constant S_ .f32 0x3F800000#32),
    StableHlo.unary main_cst_3 main_v13 (broadcastInDim S4096x1 ![] bcast_S_S4096x1 : (⟨S_, .f32⟩ : BufTy).Contents (Elt F) → (⟨S4096x1, .f32⟩ : BufTy).Contents (Elt F)),
    StableHlo.binary main_v11 main_v13 main_v14 (maximumf : (⟨S4096x1, .f32⟩ : BufTy).Contents (Elt F) → (⟨S4096x1, .f32⟩ : BufTy).Contents (Elt F) → (⟨S4096x1, .f32⟩ : BufTy).Contents (Elt F)),
    StableHlo.unary main_v14 main_v15 (broadcastInDim S4096x256 ![0, 1] bcast_S4096x1_S4096x256_0_1 : (⟨S4096x1, .f32⟩ : BufTy).Contents (Elt F) → (⟨S4096x256, .f32⟩ : BufTy).Contents (Elt F)),
    StableHlo.binary main_v12 main_v15 main_v16 (Host.divf : (⟨S4096x256, .f32⟩ : BufTy).Contents (Elt F) → (⟨S4096x256, .f32⟩ : BufTy).Contents (Elt F) → (⟨S4096x256, .f32⟩ : BufTy).Contents (Elt F)),
    StableHlo.binary main_arg0 main_v16 main_v17 ((fun a b => concatenate S4096x512 1 [⟨S4096x256, a⟩, ⟨S4096x256, b⟩] concatenates_S4096x256_S4096x256_S4096x512_d1) : (⟨S4096x256, .f32⟩ : BufTy).Contents (Elt F) → (⟨S4096x256, .f32⟩ : BufTy).Contents (Elt F) → (⟨S4096x512, .f32⟩ : BufTy).Contents (Elt F)),
    StableHlo.binary main_v17 main_arg4 main_v18 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S4096x512 ![0, 1] bcast_S1x512_S4096x512_0_1 : (⟨S1x512, .f32⟩ : BufTy).Contents (Elt F) → (⟨S4096x512, .f32⟩ : BufTy).Contents (Elt F)),
    StableHlo.binary main_v18 main_v20 main_v21 (addf : (⟨S4096x512, .f32⟩ : BufTy).Contents (Elt F) → (⟨S4096x512, .f32⟩ : BufTy).Contents (Elt F) → (⟨S4096x512, .f32⟩ : BufTy).Contents (Elt F)),
    StableHlo.TRef.nullary main_call2.cst (constant S_ .f32 0x00000000#32),
    StableHlo.TRef.unary main_call2.cst main_call2.v0 (broadcastInDim S4096x512 ![] bcast_S_S4096x512),
    StableHlo.TRef.binary (.of main_v21) main_call2.v0 main_call2.v1 maximumf,
    StableHlo.binary main_v22 main_arg6 main_v23 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    StableHlo.unary main_arg7 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S4096x256 ![0, 1] bcast_S1x256_S4096x256_0_1 : (⟨S1x256, .f32⟩ : BufTy).Contents (Elt F) → (⟨S4096x256, .f32⟩ : BufTy).Contents (Elt F)),
    StableHlo.binary main_v23 main_v25 main_v26 (addf : (⟨S4096x256, .f32⟩ : BufTy).Contents (Elt F) → (⟨S4096x256, .f32⟩ : BufTy).Contents (Elt F) → (⟨S4096x256, .f32⟩ : BufTy).Contents (Elt F)),
    StableHlo.binary main_v26 main_arg8 main_v27 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg9 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S4096x256 ![0, 1] bcast_S1x256_S4096x256_0_1 : (⟨S1x256, .f32⟩ : BufTy).Contents (Elt F) → (⟨S4096x256, .f32⟩ : BufTy).Contents (Elt F)),
    StableHlo.binary main_v27 main_v29 main_v30 (addf : (⟨S4096x256, .f32⟩ : BufTy).Contents (Elt F) → (⟨S4096x256, .f32⟩ : BufTy).Contents (Elt F) → (⟨S4096x256, .f32⟩ : BufTy).Contents (Elt F)) ]

theorem ops_sub : (ops : List (HloOp τ sig (Elt F))).Forall fun op => op.bufs ⊆ tcRefs τ sig :=
  ⟨nullary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., unary_bufs_sub .., binary_bufs_sub .., unary_bufs_sub .., nullary_bufs_sub .., binary_bufs_sub .., unary_bufs_sub .., binary_bufs_sub .., nullary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

end Cert.ReferenceIdeal.RefRun

end
-- ==== Proof.RefRun.lean ====
/-
  The reference program's @main is the straight line of its seventy-nine host operations, so every weakly fair
  execution of it ends, and ends with each buffer at the fold of those operations over the contents it was
  launched with.
-/
import proofs.«143300_j44341242364566_1_alg».proof.Proof.RefOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main, with the bodies of the functions it calls written out at their calls, is that list run in order: both
    sides unfold to one chain of the same seventy-nine steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main ends, each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference program computes, read index by index over the extended reals.

  The reference hashes each table's key rows (the row sum's remainder by 1024, taken with the divisor's sign), compares
  every hash word of the first table with every one of the second, and from the 4096 by 8192 array of matches takes
  the row counts and the product with the second table; it divides, lays the first table beside the quotient, and
  applies the three layers.  Read at a row r and a column n this is `Cert.RelEnc.refOut`.
-/
import proofs.«143300_j44341242364566_1_alg».proof.Proof.RefRun
import proofs.«143300_j44341242364566_1_alg».proof.Proof.Spec
import proofs.«143300_j44341242364566_1_alg».proof.Proof.LibPlainDot
import proofs.«143300_j44341242364566_1_alg».proof.Proof.Hash
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.RelEnc

/-- The first table's hash words, one per row: the composed term of the operations that make `main_v1`. -/
def hashVecA (ka : IVec S4096x4 32) : IVec S4096 32 :=
  hashVec reducesTo_S4096x4_S4096_d1 h_S_ bcast_S_S4096 ka

/-- The second table's hash words: the composed term of the operations that make `main_v3`. -/
def hashVecB (kb : IVec S8192x4 32) : IVec S8192 32 :=
  hashVec reducesTo_S8192x4_S8192_d1 h_S_ bcast_S_S8192 kb

/-- The first table's hash words as the column the comparison broadcasts. -/
def hashCol (ka : IVec S4096x4 32) : IVec S4096x1 32 := broadcastInDim S4096x1 ![0] bcast_S4096_S4096x1_0 (hashVecA ka)

/-- The second table's hash words as the row the comparison broadcasts. -/
def hashRow (kb : IVec S8192x4 32) : IVec S1x8192 32 := broadcastInDim S1x8192 ![1] bcast_S8192_S1x8192_1 (hashVecB kb)

/-! ### The operations after the hashing, stage by stage

Each stage is the pure term its operations compose to, for any float values; the line of operations folds to their
composition by computation alone. -/

section Stages

variable {F : FTy → Type} [FloatOps F]

/-- The 4096 by 8192 array of matches: every hash word of the column against every one of the row. -/
private def maskArr (hc : IVec S4096x1 32) (hr : IVec S1x8192 32) : FVec F S4096x8192 .f32 :=
  uitofp .f32 (cmpi .eq (broadcastInDim S4096x8192 ![0, 1] bcast_S4096x1_S4096x8192_0_1 hc)
    (broadcastInDim S4096x8192 ![0, 1] bcast_S1x8192_S4096x8192_0_1 hr))

/-- The divisor column: the larger of a row's number of matches and one. -/
private def cntArr (M : FVec F S4096x8192 .f32) : FVec F S4096x1 .f32 :=
  maximumf
    (broadcastInDim S4096x1 ![0] bcast_S4096_S4096x1_0
      (Host.reduceAdd M (constant S_ .f32 0x00000000#32) reducesTo_S4096x8192_S4096_d1 h_S_))
    (broadcastInDim S4096x1 ![] bcast_S_S4096x1 (constant S_ .f32 0x3F800000#32))

/-- The matched rows' sums over the divisor. -/
private def aggArr (M : FVec F S4096x8192 .f32) (b : FVec F S8192x256 .f32) : FVec F S4096x256 .f32 :=
  Host.divf (Host.dotGeneral dot_S4096x8192_S8192x256_S4096x256_1_0_0_1_n_n none M b)
    (broadcastInDim S4096x256 ![0, 1] bcast_S4096x1_S4096x256_0_1 (cntArr M))

/-- Two arrays laid side by side along the columns, the operands named one by one. -/
private def sideBySide (a agg : FVec F S4096x256 .f32) : FVec F S4096x512 .f32 :=
  concatenate S4096x512 1 [⟨S4096x256, a⟩, ⟨S4096x256, agg⟩] concatenates_S4096x256_S4096x256_S4096x512_d1

private theorem sideBySide_intro (a agg : FVec F S4096x256 .f32) :
    concatenate S4096x512 1 [⟨S4096x256, a⟩, ⟨S4096x256, agg⟩] concatenates_S4096x256_S4096x256_S4096x512_d1
      = sideBySide a agg := rfl

/-- The first layer, clamped at zero from below. -/
private def hidArr (comb : FVec F S4096x512 .f32) (W1 : FVec F S512x512 .f32) (b1 : FVec F S512 .f32) :
    FVec F S4096x512 .f32 :=
  maximumf
    (addf (Host.dotGeneral dot_S4096x512_S512x512_S4096x512_1_0_0_1_n_n none comb W1)
      (broadcastInDim S4096x512 ![0, 1] bcast_S1x512_S4096x512_0_1 (broadcastInDim S1x512 ![1] bcast_S512_S1x512_1 b1)))
    (broadcastInDim S4096x512 ![] bcast_S_S4096x512 (constant S_ .f32 0x00000000#32))

/-- The second layer. -/
private def relArr (hid : FVec F S4096x512 .f32) (W2 : FVec F S512x256 .f32) (b2 : FVec F S256 .f32) :
    FVec F S4096x256 .f32 :=
  addf (Host.dotGeneral dot_S4096x512_S512x256_S4096x256_1_0_0_1_n_n none hid W2)
    (broadcastInDim S4096x256 ![0, 1] bcast_S1x256_S4096x256_0_1 (broadcastInDim S1x256 ![1] bcast_S256_S1x256_1 b2))

/-- The third layer. -/
private def outArr (rel : FVec F S4096x256 .f32) (Wo : FVec F S256x256 .f32) (bo : FVec F S256 .f32) :
    FVec F S4096x256 .f32 :=
  addf (Host.dotGeneral dot_S4096x256_S256x256_S4096x256_1_0_0_1_n_n none rel Wo)
    (broadcastInDim S4096x256 ![0, 1] bcast_S1x256_S4096x256_0_1 (broadcastInDim S1x256 ![1] bcast_S256_S1x256_1 bo))

/-- The whole line of operations as one term of the ten arguments. -/
private def composed (a : FVec F S4096x256 .f32) (b : FVec F S8192x256 .f32) (ka : IVec S4096x4 32) (kb : IVec S8192x4 32)
    (W1 : FVec F S512x512 .f32) (b1 : FVec F S512 .f32) (W2 : FVec F S512x256 .f32) (b2 : FVec F S256 .f32)
    (Wo : FVec F S256x256 .f32) (bo : FVec F S256 .f32) : FVec F S4096x256 .f32 :=
  outArr (relArr (hidArr (sideBySide a (aggArr (maskArr (hashCol ka) (hashRow kb)) b)) W1 b1) W2 b2) Wo bo

attribute [local irreducible] Host.reduce Host.reduceAdd Host.remsi Host.divf concatenate in
set_option maxRecDepth 8192 in
/-- The fold of the operations at the result buffer is the composed term: the fold unrolled, each operation's result read
    at its own buffer and passed over at the others, the side-by-side operands named so that the pass reaches them. -/
private theorem composed_eq (V : Valuation τ sig (Elt F)) :
    after (ops (F := F)) V (main_v30 : DevRef τ sig)
      = composed (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp (disch := decide) only [after_cons, after_nil, sideBySide_intro,
    nullary_result', unary_result', binary_result', ternary_result',
    nullary_result_ne', unary_result_ne', binary_result_ne', ternary_result_ne']
  rfl

end Stages

section Kept

variable {F : FTy → Type} [FloatOps F]

/-! No operation writes an argument: each keeps its launch contents. -/

private theorem arg0_kept (V : Valuation τ sig (Elt F)) :
    after (ops (F := F)) V (main_arg0 : DevRef τ sig) = V (main_arg0 : DevRef τ sig) := by after_results_simp
private theorem arg1_kept (V : Valuation τ sig (Elt F)) :
    after (ops (F := F)) V (main_arg1 : DevRef τ sig) = V (main_arg1 : DevRef τ sig) := by after_results_simp
private theorem arg2_kept (V : Valuation τ sig (Elt F)) :
    after (ops (F := F)) V (main_arg2 : DevRef τ sig) = V (main_arg2 : DevRef τ sig) := by after_results_simp
private theorem arg3_kept (V : Valuation τ sig (Elt F)) :
    after (ops (F := F)) V (main_arg3 : DevRef τ sig) = V (main_arg3 : DevRef τ sig) := by after_results_simp
private theorem arg4_kept (V : Valuation τ sig (Elt F)) :
    after (ops (F := F)) V (main_arg4 : DevRef τ sig) = V (main_arg4 : DevRef τ sig) := by after_results_simp
private theorem arg5_kept (V : Valuation τ sig (Elt F)) :
    after (ops (F := F)) V (main_arg5 : DevRef τ sig) = V (main_arg5 : DevRef τ sig) := by after_results_simp
private theorem arg6_kept (V : Valuation τ sig (Elt F)) :
    after (ops (F := F)) V (main_arg6 : DevRef τ sig) = V (main_arg6 : DevRef τ sig) := by after_results_simp
private theorem arg7_kept (V : Valuation τ sig (Elt F)) :
    after (ops (F := F)) V (main_arg7 : DevRef τ sig) = V (main_arg7 : DevRef τ sig) := by after_results_simp
private theorem arg8_kept (V : Valuation τ sig (Elt F)) :
    after (ops (F := F)) V (main_arg8 : DevRef τ sig) = V (main_arg8 : DevRef τ sig) := by after_results_simp
private theorem arg9_kept (V : Valuation τ sig (Elt F)) :
    after (ops (F := F)) V (main_arg9 : DevRef τ sig) = V (main_arg9 : DevRef τ sig) := by after_results_simp

end Kept

section AtIdeal

/-! ### Broadcasts read at an index -/

/-- A column [m, 1] broadcast across the columns of [m, n]: at (p, q), the column at p. -/
private theorem bcast_col_apply {α : Type} {m n : ℕ}
    (h : (⟨2, ![m, 1]⟩ : Shape).BroadcastsInDim ⟨2, ![m, n]⟩ ![0, 1]) (x : (⟨2, ![m, 1]⟩ : Shape).Idx → α)
    (p : Fin m) (q : Fin n) :
    broadcastInDim ⟨2, ![m, n]⟩ ![0, 1] h x (ix2 p q) = x (ix2 p (0 : Fin 1)) := by
  refine broadcastInDim_apply ![0, 1] h x (ix2 p q) (ix2 p (0 : Fin 1)) fun a => ?_
  match a with
  | ⟨0, _⟩ =>
    show p.val = if m = 1 then 0 else p.val
    split
    · have := p.isLt; omega
    · rfl
  | ⟨1, _⟩ => rfl

/-- A vector [m] laid as the column [m, 1]: at (p, 0), the vector at p. -/
private theorem bcast_vec_col_apply {α : Type} {m : ℕ}
    (h : (⟨1, ![m]⟩ : Shape).BroadcastsInDim ⟨2, ![m, 1]⟩ ![0]) (v : (⟨1, ![m]⟩ : Shape).Idx → α)
    (p : Fin m) (z : Fin 1) :
    broadcastInDim ⟨2, ![m, 1]⟩ ![0] h v (ix2 p z) = v (ix1 p) := by
  refine broadcastInDim_apply ![0] h v (ix2 p z) (ix1 p) fun a => ?_
  match a with
  | ⟨0, _⟩ =>
    show p.val = if m = 1 then 0 else p.val
    split
    · have := p.isLt; omega
    · rfl

/-- A vector [n] laid as the row [1, n]: at (0, q), the vector at q. -/
private theorem bcast_vec_row_apply {α : Type} {n : ℕ}
    (h : (⟨1, ![n]⟩ : Shape).BroadcastsInDim ⟨2, ![1, n]⟩ ![1]) (v : (⟨1, ![n]⟩ : Shape).Idx → α)
    (z : Fin 1) (q : Fin n) :
    broadcastInDim ⟨2, ![1, n]⟩ ![1] h v (ix2 z q) = v (ix1 q) := by
  refine broadcastInDim_apply ![1] h v (ix2 z q) (ix1 q) fun a => ?_
  match a with
  | ⟨0, _⟩ =>
    show q.val = if n = 1 then 0 else q.val
    split
    · have := q.isLt; omega
    · rfl

/-- A bias vector [n] laid as a row and broadcast down the rows of [m, n]: at (p, q), the vector at q. -/
private theorem bias_apply {α : Type} {m n : ℕ}
    (h₁ : (⟨1, ![n]⟩ : Shape).BroadcastsInDim ⟨2, ![1, n]⟩ ![1])
    (h₂ : (⟨2, ![1, n]⟩ : Shape).BroadcastsInDim ⟨2, ![m, n]⟩ ![0, 1]) (v : (⟨1, ![n]⟩ : Shape).Idx → α)
    (p : Fin m) (q : Fin n) :
    broadcastInDim ⟨2, ![m, n]⟩ ![0, 1] h₂ (broadcastInDim ⟨2, ![1, n]⟩ ![1] h₁ v) (ix2 p q) = v (ix1 q) :=
  (broadcastInDim_oneRow_apply h₂ _ p q).trans (bcast_vec_row_apply h₁ v 0 q)

/-! ### The stages read at an index -/

/-- The array of matches at (r, j): whether row r's hash word is row j's. -/
private theorem maskArr_apply (hc : IVec S4096x1 32) (hr : IVec S1x8192 32) (r : Fin 4096) (j : Fin 8192) :
    maskArr (F := Ideal) hc hr (ix2 r j) = mk hc hr r j := by
  unfold maskArr mk
  refine Eq.trans ?_ (ind_unsigned _ _)
  exact congrArg₂ (fun x y : BitVec 32 => FloatOps.uitofp (F := Ideal) .f32 (IntOp.cmpi .eq x y))
    (bcast_col_apply _ hc r j) (broadcastInDim_oneRow_apply _ hr r j)

/-- The host's sum along a row of the array of matches, from the zero word: the plain sum of the row. -/
private theorem rowSum_apply (M : FVec Ideal S4096x8192 .f32) (r : Fin 4096) :
    Host.reduceAdd M (constant (F := Ideal) S_ .f32 0x00000000#32) reducesTo_S4096x8192_S4096_d1 h_S_ (ix1 r)
      = ∑ j : Fin 8192, M (ix2 r j) := by
  show Ideal.hostReduceAdd reducesTo_S4096x8192_S4096_d1 M (Ideal.ofBits .f32 0x00000000#32) (ix1 r) = _
  rw [Ideal.hostReduceAdd_single reducesTo_S4096x8192_S4096_d1 (by decide), Ideal.ofBits_zero_f32, zero_add]
  exact Finset.sum_congr rfl fun k _ => congrArg M
    (funext fun a => Fin.ext (by match a with | ⟨0, _⟩ => rfl | ⟨1, _⟩ => rfl))

/-- The divisor at row r: the larger of the row's sum of matches and one. -/
private theorem cntArr_apply (M : FVec Ideal S4096x8192 .f32) (r : Fin 4096) :
    cntArr M (ix2 r (0 : Fin 1)) = max (∑ j : Fin 8192, M (ix2 r j)) oneW := by
  unfold cntArr
  refine (maximumf_apply _ _ _).trans (congrArg₂ max ?_ rfl)
  exact (bcast_vec_col_apply _ _ r 0).trans (rowSum_apply M r)

/-- The quotient at (r, d). -/
private theorem aggArr_apply (M : FVec Ideal S4096x8192 .f32) (b : FVec Ideal S8192x256 .f32) (r : Fin 4096) (d : Fin 256) :
    aggArr M b (ix2 r d)
      = Ideal.div (∑ j : Fin 8192, M (ix2 r j) * b (ix2 j d)) (max (∑ j : Fin 8192, M (ix2 r j)) oneW) := by
  unfold aggArr
  show Ideal.div (FloatOps.dotGeneral _ _ _ M b (ix2 r d))
    (broadcastInDim S4096x256 ![0, 1] bcast_S4096x1_S4096x256_0_1 (cntArr M) (ix2 r d)) = _
  exact congrArg₂ Ideal.div (Cert.LibPlainDot.dotGeneral_apply _ none _ M b r d)
    ((bcast_col_apply _ _ r d).trans (cntArr_apply M r))

/-- The two tables laid side by side at (r, l): the first for l below 256, the second from 256 on. -/
private theorem sideBySide_apply (a agg : FVec Ideal S4096x256 .f32) (r : Fin 4096) (l : Fin 512) :
    sideBySide a agg (ix2 r l)
      = if h : l.val < 256 then a (ix2 r (⟨l.val, h⟩ : Fin 256))
        else agg (ix2 r ⟨l.val - 256, by have := l.isLt; omega⟩) := by
  unfold sideBySide
  split
  · rename_i h
    exact concatenate_pair_apply_left 1 a agg _ (ix2 r l) rfl (ix2 r (⟨l.val, h⟩ : Fin 256))
      (fun b => by match b with | ⟨0, _⟩ => rfl | ⟨1, _⟩ => rfl)
  · rename_i h
    exact concatenate_pair_apply_right 1 a agg _ (ix2 r l) rfl rfl
      (ix2 r (⟨l.val - 256, by have := l.isLt; omega⟩ : Fin 256))
      (fun b hb => by match b with | ⟨0, _⟩ => rfl | ⟨1, _⟩ => exact absurd rfl hb)
      (by show (l.val - 256) + 256 = l.val; omega)

/-- The first layer at (r, n). -/
private theorem hidArr_apply (comb : FVec Ideal S4096x512 .f32) (W1 : FVec Ideal S512x512 .f32) (b1 : FVec Ideal S512 .f32)
    (r : Fin 4096) (n : Fin 512) :
    hidArr comb W1 b1 (ix2 r n) = max ((∑ l : Fin 512, comb (ix2 r l) * W1 (ix2 l n)) + b1 (ix1 n)) 0 := by
  unfold hidArr
  refine (maximumf_apply _ _ _).trans (congrArg₂ max ((addf_apply _ _ _).trans (congrArg₂ (· + ·) ?_ ?_)) ?_)
  · exact Cert.LibPlainDot.dotGeneral_apply _ none _ comb W1 r n
  · exact bias_apply _ _ b1 r n
  · exact Ideal.ofBits_zero_f32

/-- The second layer at (r, n). -/
private theorem relArr_apply (hid : FVec Ideal S4096x512 .f32) (W2 : FVec Ideal S512x256 .f32) (b2 : FVec Ideal S256 .f32)
    (r : Fin 4096) (n : Fin 256) :
    relArr hid W2 b2 (ix2 r n) = (∑ l : Fin 512, hid (ix2 r l) * W2 (ix2 l n)) + b2 (ix1 n) := by
  unfold relArr
  refine (addf_apply _ _ _).trans (congrArg₂ (· + ·) ?_ ?_)
  · exact Cert.LibPlainDot.dotGeneral_apply _ none _ hid W2 r n
  · exact bias_apply _ _ b2 r n

/-- The third layer at (r, n). -/
private theorem outArr_apply (rel : FVec Ideal S4096x256 .f32) (Wo : FVec Ideal S256x256 .f32) (bo : FVec Ideal S256 .f32)
    (r : Fin 4096) (n : Fin 256) :
    outArr rel Wo bo (ix2 r n) = (∑ l : Fin 256, rel (ix2 r l) * Wo (ix2 l n)) + bo (ix1 n) := by
  unfold outArr
  refine (addf_apply _ _ _).trans (congrArg₂ (· + ·) ?_ ?_)
  · exact Cert.LibPlainDot.dotGeneral_apply _ none _ rel Wo r n
  · exact bias_apply _ _ bo r n

/-- The composed term is the encoder, index by index. -/
private theorem composed_eq_refOut (a : FVec Ideal S4096x256 .f32) (b : FVec Ideal S8192x256 .f32) (ka : IVec S4096x4 32)
    (kb : IVec S8192x4 32) (W1 : FVec Ideal S512x512 .f32) (b1 : FVec Ideal S512 .f32) (W2 : FVec Ideal S512x256 .f32)
    (b2 : FVec Ideal S256 .f32) (Wo : FVec Ideal S256x256 .f32) (bo : FVec Ideal S256 .f32) :
    composed a b ka kb W1 b1 W2 b2 Wo bo = refOut (hashCol ka) (hashRow kb) a b W1 b1 W2 b2 Wo bo := by
  funext i
  obtain ⟨r, n, rfl⟩ : ∃ (r : Fin 4096) (n : Fin 256), i = ix2 r n := ⟨i 0, i 1, eq_ix2 i⟩
  unfold composed
  refine (outArr_apply _ Wo bo r n).trans ?_
  show _ = outOf Wo bo (relOf W2 b2 (refHid (hashCol ka) (hashRow kb) a b W1 b1 r)) n
  unfold outOf
  refine congrArg (· + bo (ix1 n)) (Finset.sum_congr rfl fun l _ => congrArg (· * Wo (ix2 l n)) ?_)
  refine (relArr_apply _ W2 b2 r l).trans ?_
  unfold relOf
  refine congrArg (· + b2 (ix1 l)) (Finset.sum_congr rfl fun k _ => congrArg (· * W2 (ix2 k l)) ?_)
  refine (hidArr_apply _ W1 b1 r k).trans ?_
  unfold refHid
  refine congrArg (fun x => max (x + b1 (ix1 k)) 0) (Finset.sum_congr rfl fun q _ => congrArg (· * W1 (ix2 q k)) ?_)
  refine (sideBySide_apply a _ r q).trans ?_
  unfold refComb
  split
  · rfl
  · refine (aggArr_apply _ b r _).trans ?_
    unfold refAgg refCnt
    exact congrArg₂ Ideal.div
      (Finset.sum_congr rfl fun j _ => congrArg (· * b (ix2 j _)) (maskArr_apply _ _ r j))
      (congrArg (max · oneW) (Finset.sum_congr rfl fun j _ => maskArr_apply _ _ r j))

end AtIdeal

/-- The result buffer after the operations: the encoder of the launch contents. -/
theorem out_eq (V : Valuation τ sig (Elt Ideal)) :
    after (ops (F := Ideal)) V (main_v30 : DevRef τ sig)
      = refOut (hashCol (V (main_arg2 : DevRef τ sig))) (hashRow (V (main_arg3 : DevRef τ sig)))
          (V (main_arg0 : DevRef τ sig)) (V (main_arg1 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) :=
  (composed_eq V).trans (composed_eq_refOut _ _ _ _ _ _ _ _ _ _)

/-- Every weakly fair execution of the reference ends with the result at the encoder of its arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = refOut (hashCol (m ((c.tc : Thread nD τ).loc main_arg2))) (hashRow (m ((c.tc : Thread nD τ).loc main_arg3)))
            (m ((c.tc : Thread nD τ).loc main_arg0)) (m ((c.tc : Thread nD τ).loc main_arg1))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v30).trans (out_eq _),
       (h c main_arg0).trans (arg0_kept _), (h c main_arg1).trans (arg1_kept _), (h c main_arg2).trans (arg2_kept _),
       (h c main_arg3).trans (arg3_kept _), (h c main_arg4).trans (arg4_kept _), (h c main_arg5).trans (arg5_kept _),
       (h c main_arg6).trans (arg6_kept _), (h c main_arg7).trans (arg7_kept _), (h c main_arg8).trans (arg8_kept _),
       (h c main_arg9).trans (arg9_kept _)⟩)
    (run_main m ρ)

end Cert.ReferenceIdeal.RefValue

end
-- ==== Proof.lean ====
/-
  The certificate of the relation encoder's kernel against its reference.

  Over the extended reals both programs compute one function of their arguments.  Each row of the first table is
  matched against the rows of the second whose hash word equals its own; the matched rows are averaged, the row is laid
  beside the average, and three affine layers follow, the first clamped at zero from below.  The kernel sums the
  matches in four stretches of 2048 rows per row block, carrying the sum and the count from one grid point to the next,
  and splits the first layer's contraction into the row's half and the average's half; the reference sums over all
  8192 rows at once and contracts over the 512 laid-together coordinates.  Re-grouping a sum of extended reals changes
  nothing, so the two results are equal entry by entry; no input needs to be finite for that.  The two programs hash
  the key arrays by the same host operations, the kernel program reshaping the words to a column and a row where
  the reference broadcasts them: the same arrays.
-/
import proofs.«143300_j44341242364566_1_alg».proof.Defs
import proofs.«143300_j44341242364566_1_alg».proof.Proof.Gen.Kernel
import proofs.«143300_j44341242364566_1_alg».proof.Proof.Gen.Kernel.Skeleton
import proofs.«143300_j44341242364566_1_alg».proof.Proof.Gen.Kernel.Launch
import proofs.«143300_j44341242364566_1_alg».proof.Proof.Gen.Kernel.Points
import proofs.«143300_j44341242364566_1_alg».proof.Proof.Gen.Kernel.Frame
import proofs.«143300_j44341242364566_1_alg».proof.Proof.Gen.KernelIdeal
import proofs.«143300_j44341242364566_1_alg».proof.Proof.Gen.KernelIdeal.Skeleton
import proofs.«143300_j44341242364566_1_alg».proof.Proof.Gen.KernelIdeal.Launch
import proofs.«143300_j44341242364566_1_alg».proof.Proof.Gen.KernelIdeal.Points
import proofs.«143300_j44341242364566_1_alg».proof.Proof.Gen.KernelIdeal.Frame
import proofs.«143300_j44341242364566_1_alg».proof.Proof.Gen.KernelIdeal.Value
import proofs.«143300_j44341242364566_1_alg».proof.Proof.Gen.ReferenceIdeal
import proofs.«143300_j44341242364566_1_alg».proof.Proof.Gen.Pre_finite_inputs
import proofs.«143300_j44341242364566_1_alg».proof.Proof.KerFinal
import proofs.«143300_j44341242364566_1_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx

/-- The kernel program's hash column (the words reshaped) is the reference's (the words broadcast along a new unit
    axis): at (r, 0) both are the r-th hash word. -/
theorem hashCol_eq (ka : IVec ⟨2, ![4096, 4]⟩ 32) :
    Cert.KernelIdeal.KerValue.hashCol ka = Cert.ReferenceIdeal.RefValue.hashCol ka := by
  funext j
  obtain ⟨r, z, rfl⟩ : ∃ (r : Fin 4096) (z : Fin 1), j = ix2 r z := ⟨j 0, j 1, eq_ix2 j⟩
  unfold Cert.KernelIdeal.KerValue.hashCol Cert.ReferenceIdeal.RefValue.hashCol Cert.ReferenceIdeal.RefValue.hashVecA
  refine (shapeCast_apply _ _ (ix2 r z) (ix1 r) ?_).trans (Eq.symm (broadcastInDim_apply _ _ _ (ix2 r z) (ix1 r) ?_))
  · rw [Shape.rowMajor_val_one, Shape.rowMajor_val_two]
    show r.val = r.val * 1 + z.val
    have := z.isLt; omega
  · intro a
    match a with
    | ⟨0, _⟩ => exact (if_neg (show ¬(4096 : ℕ) = 1 by decide)).symm

/-- The kernel program's hash row is the reference's: at (0, q) both are the q-th hash word. -/
theorem hashRow_eq (kb : IVec ⟨2, ![8192, 4]⟩ 32) :
    Cert.KernelIdeal.KerValue.hashRow kb = Cert.ReferenceIdeal.RefValue.hashRow kb := by
  funext j
  obtain ⟨z, q, rfl⟩ : ∃ (z : Fin 1) (q : Fin 8192), j = ix2 z q := ⟨j 0, j 1, eq_ix2 j⟩
  unfold Cert.KernelIdeal.KerValue.hashRow Cert.ReferenceIdeal.RefValue.hashRow Cert.ReferenceIdeal.RefValue.hashVecB
  refine (shapeCast_apply _ _ (ix2 z q) (ix1 q) ?_).trans (Eq.symm (broadcastInDim_apply _ _ _ (ix2 z q) (ix1 q) ?_))
  · rw [Shape.rowMajor_val_one, Shape.rowMajor_val_two]
    show q.val = z.val * 8192 + q.val
    have := z.isLt; omega
  · intro a
    match a with
    | ⟨0, _⟩ => exact (if_neg (show ¬(8192 : ℕ) = 1 by decide)).symm

theorem frame_k : Cert.frame_Kernel := fun m ρ _ => Cert.Kernel.Gen.frame m ρ

theorem frame_ki : Cert.frame_KernelIdeal := fun m ρ _ => Cert.KernelIdeal.Gen.frame m ρ

/-- The reference ends, its arguments unchanged: its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs end with the encoder of arguments that agree: the kernel's in stretches, the reference's at once. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]
  show _ = Cert.RelEnc.kerOut _ _ _ _ _ _ _ _ _ _
  rw [Cert.RelEnc.kerOut_eq, hashCol_eq, hashRow_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
